-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S512x64 : Shape := ⟨2, ![512, 64]⟩
abbrev S64 : Shape := ⟨1, ![64]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S512x64 .f32) (main_arg5 : FVec F S64 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x64 .f32 := Host.absf main_arg4
  let main_cst_6 : FVec F S_ .f32 := constant S_ .f32 0x7F800000#32
  let main_v20 : FVec F S512x64 .f32 := broadcastInDim S512x64 ![] bcast_S_S512x64 main_cst_6
  let main_v21 : IVec S512x64 1 := cmpf .olt main_v19 main_v20
  let main_c_7 : IVec S_ 1 := constantI S_ 1 1#1
  let main_v22 : IVec S_ 1 := (fun x v => Host.reduce IntOp.andi x v reducesTo_S512x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S10000x512 .f32) (main_arg1 : FVec F S10000x10000 .f32) (main_arg2 : FVec F S512x512 .f32) (main_arg3 : FVec F S512 .f32) (main_arg4 : FVec F S512x64 .f32) (main_arg5 : FVec F S64 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S512x64 : Shape := ⟨2, ![512, 64]⟩
abbrev S64 : Shape := ⟨1, ![64]⟩
abbrev S1x512 : Shape := ⟨2, ![1, 512]⟩
abbrev S1x64 : Shape := ⟨2, ![1, 64]⟩
abbrev S400x512 : Shape := ⟨2, ![400, 512]⟩
abbrev S10000x64 : Shape := ⟨2, ![10000, 64]⟩
abbrev S400x10000 : Shape := ⟨2, ![400, 10000]⟩
abbrev S400x64 : Shape := ⟨2, ![400, 64]⟩
abbrev S400 : Shape := ⟨1, ![400]⟩
abbrev S400x1 : Shape := ⟨2, ![400, 1]⟩

abbrev nBuf : Space → Nat
  | .hbm => 13
  | .vmem => 18
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512, .f32⟩
  | .hbm, ⟨4, _⟩ => ⟨S512x64, .f32⟩
  | .hbm, ⟨5, _⟩ => ⟨S64, .f32⟩
  | .hbm, ⟨6, _⟩ => ⟨S512x512, .bf16⟩
  | .hbm, ⟨7, _⟩ => ⟨S512x64, .bf16⟩
  | .hbm, ⟨8, _⟩ => ⟨S1x512, .f32⟩
  | .hbm, ⟨9, _⟩ => ⟨S1x64, .f32⟩
  | .hbm, ⟨10, _⟩ => ⟨S10000x512, .bf16⟩
  | .hbm, ⟨11, _⟩ => ⟨S10000x64, .bf16⟩
  | .hbm, ⟨12, _⟩ => ⟨S10000x64, .f32⟩
  | .local _ .vmem, ⟨0, _⟩ => ⟨S400x512, .f32⟩
  | .local _ .vmem, ⟨1, _⟩ => ⟨S400x512, .f32⟩
  | .local _ .vmem, ⟨2, _⟩ => ⟨S512x512, .bf16⟩
  | .local _ .vmem, ⟨3, _⟩ => ⟨S400x512, .bf16⟩
  | .local _ .vmem, ⟨4, _⟩ => ⟨S400x512, .bf16⟩
  | .local _ .vmem, ⟨5, _⟩ => ⟨S400x10000, .f32⟩
  | .local _ .vmem, ⟨6, _⟩ => ⟨S400x10000, .f32⟩
  | .local _ .vmem, ⟨7, _⟩ => ⟨S10000x512, .bf16⟩
  | .local _ .vmem, ⟨8, _⟩ => ⟨S1x512, .f32⟩
  | .local _ .vmem, ⟨9, _⟩ => ⟨S512x64, .bf16⟩
  | .local _ .vmem, ⟨10, _⟩ => ⟨S400x64, .bf16⟩
  | .local _ .vmem, ⟨11, _⟩ => ⟨S400x64, .bf16⟩
  | .local _ .vmem, ⟨12, _⟩ => ⟨S400x10000, .f32⟩
  | .local _ .vmem, ⟨13, _⟩ => ⟨S400x10000, .f32⟩
  | .local _ .vmem, ⟨14, _⟩ => ⟨S10000x64, .bf16⟩
  | .local _ .vmem, ⟨15, _⟩ => ⟨S1x64, .f32⟩
  | .local _ .vmem, ⟨16, _⟩ => ⟨S400x64, .f32⟩
  | .local _ .vmem, ⟨17, _⟩ => ⟨S400x64, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bitsLt_bf16_f32 : FTy.bits .bf16 < FTy.bits .f32
  shapeCasts_S512_S1x512 : S512.ShapeCasts S1x512
  shapeCasts_S64_S1x64 : S64.ShapeCasts S1x64
  inb_S400x512_S400x512_0_0 : ∀ a, (![0, 0] : Fin 2 → Nat) a + S400x512.size a ≤ S400x512.size a
  h_S400x512 : 0 < S400x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S400x512_S400x512_0_0 : (Rect.unit (s := S400x512) ![0, 0] S400x512.size inb_S400x512_S400x512_0_0).PackedRows (EltTy.packing .bf16)
  inb_S400x10000_S400x10000_0_0 : ∀ a, (![0, 0] : Fin 2 → Nat) a + S400x10000.size a ≤ S400x10000.size a
  h_S400x10000 : 0 < S400x10000.numel
  inb_S10000x512_S10000x512_0_0 : ∀ a, (![0, 0] : Fin 2 → Nat) a + S10000x512.size a ≤ S10000x512.size a
  h_S10000x512 : 0 < S10000x512.numel
  shapeCasts_S10000x512_S10000x512 : S10000x512.ShapeCasts S10000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S400x512 : S1x512.Broadcasts S400x512
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S400x64_S400x64_0_0 : ∀ a, (![0, 0] : Fin 2 → Nat) a + S400x64.size a ≤ S400x64.size a
  h_S400x64 : 0 < S400x64.numel
  packedbf16_S400x64_S400x64_0_0 : (Rect.unit (s := S400x64) ![0, 0] S400x64.size inb_S400x64_S400x64_0_0).PackedRows (EltTy.packing .bf16)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  reduces_S400x64_S400 : S400x64.Reduces [1] S400
  shapeCasts_S400_S400x1 : S400.ShapeCasts S400x1
  broadcasts_S400x1_S400x64 : S400x1.Broadcasts S400x64
  dot_S400x512_S512x512_S400x512_1_0_0_1_n_n_wf : DotDims.WF S400x512 S512x512 S400x512 [1] [0] [0] [1] [] []
  dot_S400x10000_S10000x512_S400x512_1_0_0_1_n_n_wf : DotDims.WF S400x10000 S10000x512 S400x512 [1] [0] [0] [1] [] []
  dot_S400x512_S512x64_S400x64_1_0_0_1_n_n_wf : DotDims.WF S400x512 S512x64 S400x64 [1] [0] [0] [1] [] []
  dot_S400x10000_S10000x64_S400x64_1_0_0_1_n_n_wf : DotDims.WF S400x10000 S10000x64 S400x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x512.size a ≤ S10000x512.size a
  hwx0_0 : ∀ i : grid0.Coords, EltTy.bits .f32 = 32 ∨ (Rect.block (s := S10000x512) S400x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x512.size a ≤ S10000x512.size a
  hwx0_2 : ∀ i : grid0.Coords, EltTy.bits .bf16 = 32 ∨ (Rect.block (s := S10000x512) S400x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x512.size a ≤ S10000x512.size a
  hwx1_1 : ∀ i : grid1.Coords, EltTy.bits .bf16 = 32 ∨ (Rect.block (s := S10000x512) S10000x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x64.size a ≤ S512x64.size a
  hwx1_3 : ∀ i : grid1.Coords, EltTy.bits .bf16 = 32 ∨ (Rect.block (s := S512x64) S512x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x64.size a ≤ S10000x64.size a
  hwx1_4 : ∀ i : grid1.Coords, EltTy.bits .bf16 = 32 ∨ (Rect.block (s := S10000x64) S400x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .bf16 = 32 ∨ (Rect.block (s := S10000x64) S10000x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x64.size a ≤ S10000x64.size a
  hwx2_3 : ∀ i : grid2.Coords, EltTy.bits .f32 = 32 ∨ (Rect.block (s := S10000x64) S400x64.size (cc2_transform_3 i) (hinb2_3 i)).WholeWords (EltTy.packing .f32)

variable [Facts₀]

def dot_S400x512_S512x512_S400x512_1_0_0_1_n_n : DotDims S400x512 S512x512 S400x512 where
  lhsContracting := [1]
  rhsContracting := [0]
  lhsNonContracting := [0]
  rhsNonContracting := [1]
  lhsBatch := []
  rhsBatch := []
  wf := dot_S400x512_S512x512_S400x512_1_0_0_1_n_n_wf
def dot_S400x10000_S10000x512_S400x512_1_0_0_1_n_n : DotDims S400x10000 S10000x512 S400x512 where
  lhsContracting := [1]
  rhsContracting := [0]
  lhsNonContracting := [0]
  rhsNonContracting := [1]
  lhsBatch := []
  rhsBatch := []
  wf := dot_S400x10000_S10000x512_S400x512_1_0_0_1_n_n_wf
def dot_S400x512_S512x64_S400x64_1_0_0_1_n_n : DotDims S400x512 S512x64 S400x64 where
  lhsContracting := [1]
  rhsContracting := [0]
  lhsNonContracting := [0]
  rhsNonContracting := [1]
  lhsBatch := []
  rhsBatch := []
  wf := dot_S400x512_S512x64_S400x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf

abbrev win0_0 : Pipeline.Window sig grid0 :=
  Pipeline.Window.ofSpec (Memref.whole main_arg0) S400x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S400x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S10000x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S512x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S400x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S400x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S512x64 : Shape := ⟨2, ![512, 64]⟩
abbrev S64 : Shape := ⟨1, ![64]⟩
abbrev S1x512 : Shape := ⟨2, ![1, 512]⟩
abbrev S_ : Shape := ⟨0, ![]⟩
abbrev S10000x64 : Shape := ⟨2, ![10000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 34
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512, .f32⟩
  | .hbm, ⟨4, _⟩ => ⟨S512x64, .f32⟩
  | .hbm, ⟨5, _⟩ => ⟨S64, .f32⟩
  | .hbm, ⟨6, _⟩ => ⟨S10000x512, .f32⟩
  | .hbm, ⟨7, _⟩ => ⟨S10000x512, .f32⟩
  | .hbm, ⟨8, _⟩ => ⟨S1x512, .f32⟩
  | .hbm, ⟨9, _⟩ => ⟨S10000x512, .f32⟩
  | .hbm, ⟨10, _⟩ => ⟨S10000x512, .f32⟩
  | .hbm, ⟨11, _⟩ => ⟨S_, .f32⟩
  | .hbm, ⟨12, _⟩ => ⟨S10000x512, .f32⟩
  | .hbm, ⟨13, _⟩ => ⟨S10000x512, .f32⟩
  | .hbm, ⟨14, _⟩ => ⟨S10000x64, .f32⟩
  | .hbm, ⟨15, _⟩ => ⟨S10000x64, .f32⟩
  | .hbm, ⟨16, _⟩ => ⟨S1x64, .f32⟩
  | .hbm, ⟨17, _⟩ => ⟨S10000x64, .f32⟩
  | .hbm, ⟨18, _⟩ => ⟨S10000x64, .f32⟩
  | .hbm, ⟨19, _⟩ => ⟨S_, .f32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000x1, .f32⟩
  | .hbm, ⟨25, _⟩ => ⟨S10000x64, .f32⟩
  | .hbm, ⟨26, _⟩ => ⟨S10000x64, .f32⟩
  | .hbm, ⟨27, _⟩ => ⟨S10000x64, .f32⟩
  | .hbm, ⟨28, _⟩ => ⟨S_, .f32⟩
  | .hbm, ⟨29, _⟩ => ⟨S10000, .f32⟩
  | .hbm, ⟨30, _⟩ => ⟨S10000x1, .f32⟩
  | .hbm, ⟨31, _⟩ => ⟨S10000x1, .f32⟩
  | .hbm, ⟨32, _⟩ => ⟨S10000x64, .f32⟩
  | .hbm, ⟨33, _⟩ => ⟨S10000x64, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_cst : Ref sig .tc := ⟨.hbm, 19, rfl⟩
abbrev main_call1_v0 : Ref sig .tc := ⟨.hbm, 20, rfl⟩
abbrev main_call1_cst_0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_v6 : Ref sig .tc := ⟨.hbm, 27, rfl⟩
abbrev main_call1_cst_1 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_v11 : Ref sig .tc := ⟨.hbm, 33, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  reducesTo_S10000x64_S10000_d1 : S10000x64.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  dot_S10000x512_S512x512_S10000x512_1_0_0_1_n_n_wf : DotDims.WF S10000x512 S512x512 S10000x512 [1] [0] [0] [1] [] []
  dot_S10000x10000_S10000x512_S10000x512_1_0_0_1_n_n_wf : DotDims.WF S10000x10000 S10000x512 S10000x512 [1] [0] [0] [1] [] []
  dot_S10000x512_S512x64_S10000x64_1_0_0_1_n_n_wf : DotDims.WF S10000x512 S512x64 S10000x64 [1] [0] [0] [1] [] []
  dot_S10000x10000_S10000x64_S10000x64_1_0_0_1_n_n_wf : DotDims.WF S10000x10000 S10000x64 S10000x64 [1] [0] [0] [1] [] []

variable [Facts₀]

def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def dot_S10000x10000_S10000x512_S10000x512_1_0_0_1_n_n : DotDims S10000x10000 S10000x512 S10000x512 where
  lhsContracting := [1]
  rhsContracting := [0]
  lhsNonContracting := [0]
  rhsNonContracting := [1]
  lhsBatch := []
  rhsBatch := []
  wf := dot_S10000x10000_S10000x512_S10000x512_1_0_0_1_n_n_wf
def dot_S10000x512_S512x64_S10000x64_1_0_0_1_n_n : DotDims S10000x512 S512x64 S10000x64 where
  lhsContracting := [1]
  rhsContracting := [0]
  lhsNonContracting := [0]
  rhsNonContracting := [1]
  lhsBatch := []
  rhsBatch := []
  wf := dot_S10000x512_S512x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.Spec.lean ====
/-
  The mathematics of the two-layer graph convolution, apart from any program.

  Over the extended reals, for a feature matrix `x`, a dense adjacency `adj`, weights `W1`, `W2` and biases `b1`, `b2`:
    hidden  i l = max (∑ k, adj i k * (∑ f, x k f * W1 f l) + b1 l) 0
    logits  i j = ∑ k, adj i k * (∑ l, hidden k l * W2 l j) + b2 j
  and the result is the row-wise log-softmax of `logits`, which the two programs spell differently:
    shiftedThenLog  o j = (o j - M) - log (∑ k, exp (o k - M))      (subtract the row maximum, then the log of the sum)
    logPlusMax      o j = o j - (log (∑ k, exp (o k - M)) + M)      (add the maximum back to the log, subtract once)
  with `M` the row's maximum. The two agree as soon as `M` is a real number: then `-(L + M) = -L - M` for EVERY extended
  real `L` and the rest is commutativity of addition. `M` is real when every logit of the row is, and every logit is real
  when every input entry is: finite sums of products of reals, maxima with zero and sums of reals are real.
-/
import Idealize.ShloMosaic.PureOps.Ideal.Laws
import Idealize.ShloMosaic.Lib.ValueIdx

noncomputable section

namespace Cert.Spec

open Idealize.ShloMosaic

/-! ## Arrays read by coordinates -/

/-- A rank-2 array read by its two coordinates. -/
def cur2 {a b : Nat} (v : (⟨2, ![a, b]⟩ : Shape).Idx → EReal) (p : Fin a) (q : Fin b) : EReal := v (ValueIdx.ix2 p q)

/-- A rank-1 array read by its coordinate. -/
def cur1 {a : Nat} (v : (⟨1, ![a]⟩ : Shape).Idx → EReal) (p : Fin a) : EReal := v (ValueIdx.ix1 p)

/-! ## Real entries -/

/-- An extended real that is a real number: neither infinity. -/
def IsReal (x : EReal) : Prop := ∃ r : ℝ, x = (r : EReal)

theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

theorem IsReal.sum {ι : Type*} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

theorem IsReal.ne_top {x : EReal} (hx : IsReal x) : x ≠ ⊤ := by obtain ⟨a, rfl⟩ := hx; exact EReal.coe_ne_top a
theorem IsReal.ne_bot {x : EReal} (hx : IsReal x) : x ≠ ⊥ := by obtain ⟨a, rfl⟩ := hx; exact EReal.coe_ne_bot a

/-! ## The network -/

section Net

variable {n f h c : Nat}
variable (x : Fin n → Fin f → EReal) (adj : Fin n → Fin n → EReal) (W1 : Fin f → Fin h → EReal) (b1 : Fin h → EReal)
  (W2 : Fin h → Fin c → EReal) (b2 : Fin c → EReal)

/-- The projected features `x · W1`. -/
def proj1 (i : Fin n) (l : Fin h) : EReal := ∑ k : Fin f, x i k * W1 k l

/-- One propagation followed by the bias, the rectifier and the second projection, from ANY projected features `p`:
    `relu (adj · p + b1) · W2`. -/
def layer1 (p : Fin n → Fin h → EReal) (i : Fin n) (j : Fin c) : EReal :=
  ∑ l : Fin h, max (∑ k : Fin n, adj i k * p k l + b1 l) 0 * W2 l j

/-- The second propagation and its bias, from ANY projected hidden state `q`: `adj · q + b2`. -/
def layer2 (q : Fin n → Fin c → EReal) (i : Fin n) (j : Fin c) : EReal :=
  ∑ k : Fin n, adj i k * q k j + b2 j

/-- The logits of the whole network. -/
def logits : Fin n → Fin c → EReal := layer2 adj b2 (layer1 adj b1 W2 (proj1 x W1))

theorem proj1_isReal (hx : ∀ i k, IsReal (x i k)) (hW1 : ∀ k l, IsReal (W1 k l)) (i : Fin n) (l : Fin h) :
    IsReal (proj1 x W1 i l) :=
  IsReal.sum _ _ fun k _ => (hx i k).mul (hW1 k l)

theorem layer1_isReal (p : Fin n → Fin h → EReal) (hadj : ∀ i k, IsReal (adj i k)) (hb1 : ∀ l, IsReal (b1 l))
    (hW2 : ∀ l j, IsReal (W2 l j)) (hp : ∀ k l, IsReal (p k l)) (i : Fin n) (j : Fin c) : IsReal (layer1 adj b1 W2 p i j) :=
  IsReal.sum _ _ fun l _ =>
    (((IsReal.sum _ _ fun k _ => (hadj i k).mul (hp k l)).add (hb1 l)).max isReal_zero).mul (hW2 l j)

theorem layer2_isReal (q : Fin n → Fin c → EReal) (hadj : ∀ i k, IsReal (adj i k)) (hb2 : ∀ j, IsReal (b2 j))
    (hq : ∀ k j, IsReal (q k j)) (i : Fin n) (j : Fin c) : IsReal (layer2 adj b2 q i j) :=
  (IsReal.sum _ _ fun k _ => (hadj i k).mul (hq k j)).add (hb2 j)

theorem logits_isReal (hx : ∀ i k, IsReal (x i k)) (hadj : ∀ i k, IsReal (adj i k)) (hW1 : ∀ k l, IsReal (W1 k l))
    (hb1 : ∀ l, IsReal (b1 l)) (hW2 : ∀ l j, IsReal (W2 l j)) (hb2 : ∀ j, IsReal (b2 j)) (i : Fin n) (j : Fin c) :
    IsReal (logits x adj W1 b1 W2 b2 i j) :=
  layer2_isReal adj b2 _ hadj hb2 (layer1_isReal adj b1 W2 _ hadj hb1 hW2 (proj1_isReal x W1 hx hW1)) i j

end Net

/-! ## The row-wise log-softmax, spelled two ways -/

section LogSoftmax

variable {c : Nat}

/-- A row's maximum, folded from `-∞`. -/
def rowMax (o : Fin c → EReal) : EReal := (Finset.univ : Finset (Fin c)).fold max ⊥ o

/-- The log of the sum of the exponentials of a row shifted by its maximum. -/
def logSumShifted (o : Fin c → EReal) : EReal := Ideal.log (∑ k : Fin c, Ideal.exp (o k - rowMax o))

/-- Shift by the maximum first, then subtract the log of the sum. -/
def shiftedThenLog (o : Fin c → EReal) (j : Fin c) : EReal := (o j - rowMax o) - logSumShifted o

/-- Add the maximum back to the log of the sum, then subtract once. -/
def logPlusMax (o : Fin c → EReal) (j : Fin c) : EReal := o j - (logSumShifted o + rowMax o)

/-- The maximum of a nonempty row of real numbers is a real number. -/
theorem rowMax_isReal (hc : 0 < c) (o : Fin c → EReal) (ho : ∀ j, IsReal (o j)) : IsReal (rowMax o) := by
  have htop : rowMax o ≠ ⊤ := by
    have : rowMax o < ⊤ := by
      unfold rowMax
      rw [Finset.fold_max_lt]
      exact ⟨bot_lt_top, fun j _ => lt_top_iff_ne_top.mpr (ho j).ne_top⟩
    exact this.ne
  have hbot : rowMax o ≠ ⊥ := by
    have hle : o ⟨0, hc⟩ ≤ rowMax o := by
      unfold rowMax
      rw [Finset.le_fold_max]
      exact Or.inr ⟨⟨0, hc⟩, Finset.mem_univ _, le_rfl⟩
    intro hb
    rw [hb, le_bot_iff] at hle
    exact (ho ⟨0, hc⟩).ne_bot hle
  exact ⟨(rowMax o).toReal, (EReal.coe_toReal htop hbot).symm⟩

/-- On a row of real numbers the two spellings of the log-softmax agree: with the maximum `M` real,
    `-(L + M) = -L - M` whatever `L` is, and addition is commutative and associative. -/
theorem logPlusMax_eq_shiftedThenLog (hc : 0 < c) (o : Fin c → EReal) (ho : ∀ j, IsReal (o j)) (j : Fin c) :
    logPlusMax o j = shiftedThenLog o j := by
  obtain ⟨M, hM⟩ := rowMax_isReal hc o ho
  unfold logPlusMax shiftedThenLog
  generalize logSumShifted o = L
  rw [hM, sub_eq_add_neg, sub_eq_add_neg, sub_eq_add_neg,
    EReal.neg_add (Or.inr (EReal.coe_ne_top M)) (Or.inr (EReal.coe_ne_bot M)), sub_eq_add_neg]
  rw [add_assoc, add_comm (-L) (-(M : EReal))]

end LogSoftmax

end Cert.Spec

end
-- ==== Proof.Pay0.lean ====
/-
  The body of the first kernel at one grid point, as a value: its one store writes, at row p and column q of the
  400 x 512 output block, the sum over k of the (p, k) entry of the loaded row block times the (k, q) entry of the loaded
  weight matrix. The two changes of float format and the shape cast to the same shape are identities on extended reals,
  and the matrix unit accumulates into zero.
-/
import proofs.«181139_g25151328485548_cont_8to1_846_2_alg».proof.Proof.Gen.KernelIdeal.Skeleton
import proofs.«181139_g25151328485548_cont_8to1_846_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.ValueIdx
open Cert.Spec

/-! ## The matrix unit's product at an index -/

theorem lhs_xw1_0 (i : S400x512.Idx) (r : dot_S400x512_S512x512_S400x512_1_0_0_1_n_n.contr.Idx) :
    (dot_S400x512_S512x512_S400x512_1_0_0_1_n_n.lhsIdx i r 0).val = (i 0).val := by
  unfold DotDims.lhsIdx
  rw [dif_neg (show ¬(0 : Fin S400x512.rank) ∈ dot_S400x512_S512x512_S400x512_1_0_0_1_n_n.lhsBatch by decide), dif_pos (show (0 : Fin S400x512.rank) ∈ dot_S400x512_S512x512_S400x512_1_0_0_1_n_n.lhsNonContracting by decide)]
  rfl
theorem lhs_xw1_1 (i : S400x512.Idx) (r : dot_S400x512_S512x512_S400x512_1_0_0_1_n_n.contr.Idx) :
    (dot_S400x512_S512x512_S400x512_1_0_0_1_n_n.lhsIdx i r 1).val = (r ⟨0, by decide⟩).val :=
  dot_S400x512_S512x512_S400x512_1_0_0_1_n_n.lhsIdx_val_of_single rfl i r
theorem rhs_xw1_0 (i : S400x512.Idx) (r : dot_S400x512_S512x512_S400x512_1_0_0_1_n_n.contr.Idx) :
    (dot_S400x512_S512x512_S400x512_1_0_0_1_n_n.rhsIdx i r 0).val = (r ⟨0, by decide⟩).val :=
  dot_S400x512_S512x512_S400x512_1_0_0_1_n_n.rhsIdx_val_of_single rfl i r
theorem rhs_xw1_1 (i : S400x512.Idx) (r : dot_S400x512_S512x512_S400x512_1_0_0_1_n_n.contr.Idx) :
    (dot_S400x512_S512x512_S400x512_1_0_0_1_n_n.rhsIdx i r 1).val = (i 1).val := by
  unfold DotDims.rhsIdx
  rw [dif_neg (show ¬(1 : Fin S512x512.rank) ∈ dot_S400x512_S512x512_S400x512_1_0_0_1_n_n.rhsBatch by decide), dif_pos (show (1 : Fin S512x512.rank) ∈ dot_S400x512_S512x512_S400x512_1_0_0_1_n_n.rhsNonContracting by decide)]
  rfl

/-- Into a zero accumulator the product of a 400 x 512 block with a 512 x 512 matrix is, at (p, q), the sum over the
    contraction index k of a (p, k) * b (k, q). -/
theorem matmul_xw1_apply (a : FVec Ideal S400x512 .bf16) (b : FVec Ideal S512x512 .bf16) (p : Fin 400) (q : Fin 512) :
    matmul dot_S400x512_S512x512_S400x512_1_0_0_1_n_n none a b (constant S400x512 .f32 0x00000000#32) (ix2 p q)
      = ∑ k : Fin 512, a (ix2 p k) * b (ix2 k q) := by
  simp only [matmul]
  rw [Ideal.matmul_constant_zero_apply, ← Equiv.sum_comp (ValueIdx.contrEquiv1 dot_S400x512_S512x512_S400x512_1_0_0_1_n_n 512 rfl rfl).symm]
  refine Finset.sum_congr rfl fun k _ => ?_
  have hk := ValueIdx.contrEquiv1_symm_val dot_S400x512_S512x512_S400x512_1_0_0_1_n_n 512 rfl rfl k
  have el : dot_S400x512_S512x512_S400x512_1_0_0_1_n_n.lhsIdx (ix2 p q) ((ValueIdx.contrEquiv1 dot_S400x512_S512x512_S400x512_1_0_0_1_n_n 512 rfl rfl).symm k) = ix2 p k := funext fun a => Fin.ext (by
    match a with
    | ⟨0, _⟩ => exact lhs_xw1_0 _ _
    | ⟨1, _⟩ => exact (lhs_xw1_1 _ _).trans hk)
  have er : dot_S400x512_S512x512_S400x512_1_0_0_1_n_n.rhsIdx (ix2 p q) ((ValueIdx.contrEquiv1 dot_S400x512_S512x512_S400x512_1_0_0_1_n_n 512 rfl rfl).symm k) = ix2 k q := funext fun a => Fin.ext (by
    match a with
    | ⟨0, _⟩ => exact (rhs_xw1_0 _ _).trans hk
    | ⟨1, _⟩ => exact rhs_xw1_1 _ _)
  rw [el, er]

/-! ## The payload -/

theorem pay0_apply (x0 : Vec Ideal S400x512 .f32) (x1 : Vec Ideal S512x512 .bf16) (p : Fin 400) (q : Fin 512) :
    k0_pay1 (F := Ideal) x0 x1 (ix2 p q) = ∑ k : Fin 512, x0 (ix2 p k) * x1 (ix2 k q) := by
  unfold k0_pay1
  rw [shapeCast_self]
  exact matmul_xw1_apply _ _ p q

end Cert.KernelIdeal.Val

end
-- ==== Proof.Region0.lean ====
/-
  The first kernel region, read as a value. Whatever the buffers hold when the region is entered, after its 25 grid
  points the output array holds the matrix product of the array behind its first window (its row block t at point t)
  with the array behind its second window (whole at every point): point t writes rows 400 t … 400 t + 399, each row of
  the array is written by exactly the point t = row / 400, and what it writes there is the body's value at the block.
-/
import proofs.«181139_g25151328485548_cont_8to1_846_2_alg».proof.Proof.Gen.KernelIdeal.Frame
import proofs.«181139_g25151328485548_cont_8to1_846_2_alg».proof.Proof.Spec
import proofs.«181139_g25151328485548_cont_8to1_846_2_alg».proof.Proof.Pay0
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx
open Cert.Spec

variable (V : (c : Dev nD) → (b : Ref sig .tc) → Buf (Elt Ideal) ((c : Thread nD τ).loc b))

/-- The arrays region 0 reads, at their literal types. -/
abbrev r0x (c : Dev nD) : S10000x512.Idx → EReal := V c main_arg0
abbrev r0w (c : Dev nD) : S512x512.Idx → EReal := V c main_v0

theorem hz : (![0, 0] : Fin 2 → Nat) = fun _ => 0 := funext fun a => by fin_cases a <;> rfl

/-- The whole output array as one function of the two arrays the region reads: the matrix product, index by index. -/
def prodArr (c : Dev nD) : S10000x512.Idx → EReal :=
  fun i => proj1 (cur2 (r0x V c)) (cur2 (r0w V c)) ⟨(i 0).val, (i 0).isLt⟩ ⟨(i 1).val, (i 1).isLt⟩

/-- The index maps over the 25 grid points: the first input and the output move down one row block per point, the
    second input stays at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT t WRITES BACK is block t of the product: row a of the block is row 400 t + a of the first array. -/
theorem flushed_eq (c : Dev nD) (t : Fin cfg0.N) :
    (dat0 V c).flushed 2 t = ((cfg0.win 2).blk t).view.read (Elt Ideal) (prodArr V c) := by
  show (cfg0.win 2).cut (grid0.coords t) ((dat0 V c).after 2 t) = _
  rw [after0_2]
  unfold out0_2
  rw [View.canon_unit_zero hz]
  simp only [View.ld_unit_zero (S := S400x512) hz, View.ld_unit_zero (S := S512x512) hz]
  obtain ⟨e0, e1, e2, e3, e4, e5⟩ := idx_facts t
  funext j
  obtain ⟨a, b, rfl⟩ : ∃ (a : Fin 400) (b : Fin 512), j = ix2 a b := ⟨j 0, j 1, eq_ix2 j⟩
  show k0_pay1 (iblk0 V c 0 t) (iblk0 V c 1 t) (ix2 a b) = prodArr V c (((cfg0.win 2).blk t).view.emb (ix2 a b))
  refine (pay0_apply _ _ a b).trans ?_
  unfold prodArr proj1 cur2
  refine Finset.sum_congr rfl fun k _ => ?_
  refine congrArg₂ (· * ·) ?_ ?_
  · show r0x V c (((cfg0.win 0).blk t).view.emb (ix2 a k)) = r0x V c _
    refine congrArg (r0x V c) (funext fun d => Fin.ext ?_)
    match d with
    | ⟨0, _⟩ =>
      show win0_0.index t (0 : Fin 2) * 400 + 1 * a.val = win0_2.index t (0 : Fin 2) * 400 + 1 * a.val
      omega
    | ⟨1, _⟩ =>
      show win0_0.index t (1 : Fin 2) * 512 + 1 * k.val = k.val
      omega
  · show r0w V c (((cfg0.win 1).blk t).view.emb (ix2 k b)) = r0w V c _
    refine congrArg (r0w V c) (funext fun d => Fin.ext ?_)
    match d with
    | ⟨0, _⟩ =>
      show win0_1.index t (0 : Fin 2) * 512 + 1 * k.val = k.val
      omega
    | ⟨1, _⟩ =>
      show win0_1.index t (1 : Fin 2) * 512 + 1 * b.val = win0_2.index t (1 : Fin 2) * 512 + 1 * b.val
      omega

/-- An index of the output array is in point t's block iff each coordinate is in the block's range on its axis. -/
theorem mem_blk (t : Fin cfg0.N) (i : S10000x512.Idx) :
    i ∈ ((cfg0.win 2).blk t).view.set ↔ ∀ a : Fin 2, win0_2.index t a * S400x512.size a ≤ (i a).val ∧ (i a).val < win0_2.index t a * S400x512.size a + S400x512.size a := by
  show i ∈ ((View.whole main_v4).slice (win0_2.rect t)).set ↔ _
  rw [View.set_slice_whole, Rect.mem_set_unit]
  exact Iff.rfl

/-- Every row r of the output is written by the point r / 400. -/
theorem cover (i : S10000x512.Idx) :
    ∃ t : Fin cfg0.N, (cfg0.win 2).flush t = true ∧ i ∈ ((cfg0.win 2).blk t).view.set := by
  have hi0 : (i 0).val < 10000 := (i 0).isLt
  have hi1 : (i 1).val < 512 := (i 1).isLt
  have hN : grid0.N = 25 := N_0
  obtain ⟨t, ht⟩ : ∃ t : Fin cfg0.N, t.val = (i 0).val / 400 :=
    ⟨⟨(i 0).val / 400, by show (i 0).val / 400 < grid0.N; omega⟩, rfl⟩
  obtain ⟨e0, e1, e2, e3, e4, e5⟩ := idx_facts t
  refine ⟨t, flush0_2 t, ?_⟩
  rw [mem_blk]
  intro a
  match a with
  | ⟨0, _⟩ =>
    show win0_2.index t (0 : Fin 2) * 400 ≤ (i 0).val ∧ (i 0).val < win0_2.index t (0 : Fin 2) * 400 + 400
    omega
  | ⟨1, _⟩ =>
    show win0_2.index t (1 : Fin 2) * 512 ≤ (i 1).val ∧ (i 1).val < win0_2.index t (1 : Fin 2) * 512 + 512
    omega

/-- THE ARRAY after the region is the product. -/
theorem final (c : Dev nD) : (dat0 V c).arrAt 2 cfg0.N = prodArr V c :=
  (dat0 V c).arrAt_eq_of_cover 2 (prodArr V c) (fun t _ => flushed_eq V c t) cover

/-- REGION 0: the output array after the region, at row p and column q, is the p-th row of the first array times the
    q-th column of the second. -/
theorem region0_value (c : Dev nD) (p : Fin 10000) (q : Fin 512) :
    (dat0 V c).arrAt 2 cfg0.N (ix2 p q) = proj1 (cur2 (r0x V c)) (cur2 (r0w V c)) p q := by
  rw [final]
  rfl

end Cert.KernelIdeal.Val

end
-- ==== Proof.Pay1.lean ====
/-
  The body of the second kernel at one grid point, as a value: at row p and column q of the 400 x 64 output block it
  writes  ∑ l, max (∑ k, a (p, k) * h (k, l) + b (0, l)) 0 * w (l, q)  for the loaded adjacency rows a, projected features h,
  bias row b and weights w.
-/
import proofs.«181139_g25151328485548_cont_8to1_846_2_alg».proof.Proof.Gen.KernelIdeal.Skeleton
import proofs.«181139_g25151328485548_cont_8to1_846_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.ValueIdx
open Cert.Spec

/-! ## The propagation product: adjacency rows times projected features -/

theorem lhs_l1prop_0 (i : S400x512.Idx) (r : dot_S400x10000_S10000x512_S400x512_1_0_0_1_n_n.contr.Idx) :
    (dot_S400x10000_S10000x512_S400x512_1_0_0_1_n_n.lhsIdx i r 0).val = (i 0).val := by
  unfold DotDims.lhsIdx
  rw [dif_neg (show ¬(0 : Fin S400x10000.rank) ∈ dot_S400x10000_S10000x512_S400x512_1_0_0_1_n_n.lhsBatch by decide), dif_pos (show (0 : Fin S400x10000.rank) ∈ dot_S400x10000_S10000x512_S400x512_1_0_0_1_n_n.lhsNonContracting by decide)]
  rfl
theorem lhs_l1prop_1 (i : S400x512.Idx) (r : dot_S400x10000_S10000x512_S400x512_1_0_0_1_n_n.contr.Idx) :
    (dot_S400x10000_S10000x512_S400x512_1_0_0_1_n_n.lhsIdx i r 1).val = (r ⟨0, by decide⟩).val :=
  dot_S400x10000_S10000x512_S400x512_1_0_0_1_n_n.lhsIdx_val_of_single rfl i r
theorem rhs_l1prop_0 (i : S400x512.Idx) (r : dot_S400x10000_S10000x512_S400x512_1_0_0_1_n_n.contr.Idx) :
    (dot_S400x10000_S10000x512_S400x512_1_0_0_1_n_n.rhsIdx i r 0).val = (r ⟨0, by decide⟩).val :=
  dot_S400x10000_S10000x512_S400x512_1_0_0_1_n_n.rhsIdx_val_of_single rfl i r
theorem rhs_l1prop_1 (i : S400x512.Idx) (r : dot_S400x10000_S10000x512_S400x512_1_0_0_1_n_n.contr.Idx) :
    (dot_S400x10000_S10000x512_S400x512_1_0_0_1_n_n.rhsIdx i r 1).val = (i 1).val := by
  unfold DotDims.rhsIdx
  rw [dif_neg (show ¬(1 : Fin S10000x512.rank) ∈ dot_S400x10000_S10000x512_S400x512_1_0_0_1_n_n.rhsBatch by decide), dif_pos (show (1 : Fin S10000x512.rank) ∈ dot_S400x10000_S10000x512_S400x512_1_0_0_1_n_n.rhsNonContracting by decide)]
  rfl

/-- Into a zero accumulator the product of a 400 x 10000 block with a 10000 x 512 matrix is, at (p, q), the sum over the
    contraction index k of a (p, k) * b (k, q). -/
theorem matmul_l1prop_apply (a : FVec Ideal S400x10000 .bf16) (b : FVec Ideal S10000x512 .bf16) (p : Fin 400) (q : Fin 512) :
    matmul dot_S400x10000_S10000x512_S400x512_1_0_0_1_n_n none a b (constant (F := Ideal) S400x512 .f32 0x00000000#32) (ix2 p q)
      = ∑ k : Fin 10000, a (ix2 p k) * b (ix2 k q) := by
  simp only [matmul]
  rw [Ideal.matmul_constant_zero_apply, ← Equiv.sum_comp (ValueIdx.contrEquiv1 dot_S400x10000_S10000x512_S400x512_1_0_0_1_n_n 10000 rfl rfl).symm]
  refine Finset.sum_congr rfl fun k _ => ?_
  have hk := ValueIdx.contrEquiv1_symm_val dot_S400x10000_S10000x512_S400x512_1_0_0_1_n_n 10000 rfl rfl k
  have el : dot_S400x10000_S10000x512_S400x512_1_0_0_1_n_n.lhsIdx (ix2 p q) ((ValueIdx.contrEquiv1 dot_S400x10000_S10000x512_S400x512_1_0_0_1_n_n 10000 rfl rfl).symm k) = ix2 p k := funext fun c => Fin.ext (by
    match c with
    | ⟨0, _⟩ => exact lhs_l1prop_0 _ _
    | ⟨1, _⟩ => exact (lhs_l1prop_1 _ _).trans hk)
  have er : dot_S400x10000_S10000x512_S400x512_1_0_0_1_n_n.rhsIdx (ix2 p q) ((ValueIdx.contrEquiv1 dot_S400x10000_S10000x512_S400x512_1_0_0_1_n_n 10000 rfl rfl).symm k) = ix2 k q := funext fun c => Fin.ext (by
    match c with
    | ⟨0, _⟩ => exact (rhs_l1prop_0 _ _).trans hk
    | ⟨1, _⟩ => exact rhs_l1prop_1 _ _)
  rw [el, er]

/-! ## The second projection: rectified hidden rows times the second weights -/

theorem lhs_l1proj_0 (i : S400x64.Idx) (r : dot_S400x512_S512x64_S400x64_1_0_0_1_n_n.contr.Idx) :
    (dot_S400x512_S512x64_S400x64_1_0_0_1_n_n.lhsIdx i r 0).val = (i 0).val := by
  unfold DotDims.lhsIdx
  rw [dif_neg (show ¬(0 : Fin S400x512.rank) ∈ dot_S400x512_S512x64_S400x64_1_0_0_1_n_n.lhsBatch by decide), dif_pos (show (0 : Fin S400x512.rank) ∈ dot_S400x512_S512x64_S400x64_1_0_0_1_n_n.lhsNonContracting by decide)]
  rfl
theorem lhs_l1proj_1 (i : S400x64.Idx) (r : dot_S400x512_S512x64_S400x64_1_0_0_1_n_n.contr.Idx) :
    (dot_S400x512_S512x64_S400x64_1_0_0_1_n_n.lhsIdx i r 1).val = (r ⟨0, by decide⟩).val :=
  dot_S400x512_S512x64_S400x64_1_0_0_1_n_n.lhsIdx_val_of_single rfl i r
theorem rhs_l1proj_0 (i : S400x64.Idx) (r : dot_S400x512_S512x64_S400x64_1_0_0_1_n_n.contr.Idx) :
    (dot_S400x512_S512x64_S400x64_1_0_0_1_n_n.rhsIdx i r 0).val = (r ⟨0, by decide⟩).val :=
  dot_S400x512_S512x64_S400x64_1_0_0_1_n_n.rhsIdx_val_of_single rfl i r
theorem rhs_l1proj_1 (i : S400x64.Idx) (r : dot_S400x512_S512x64_S400x64_1_0_0_1_n_n.contr.Idx) :
    (dot_S400x512_S512x64_S400x64_1_0_0_1_n_n.rhsIdx i r 1).val = (i 1).val := by
  unfold DotDims.rhsIdx
  rw [dif_neg (show ¬(1 : Fin S512x64.rank) ∈ dot_S400x512_S512x64_S400x64_1_0_0_1_n_n.rhsBatch by decide), dif_pos (show (1 : Fin S512x64.rank) ∈ dot_S400x512_S512x64_S400x64_1_0_0_1_n_n.rhsNonContracting by decide)]
  rfl

/-- Into a zero accumulator the product of a 400 x 512 block with a 512 x 64 matrix is, at (p, q), the sum over the
    contraction index k of a (p, k) * b (k, q). -/
theorem matmul_l1proj_apply (a : FVec Ideal S400x512 .bf16) (b : FVec Ideal S512x64 .bf16) (p : Fin 400) (q : Fin 64) :
    matmul dot_S400x512_S512x64_S400x64_1_0_0_1_n_n none a b (constant (F := Ideal) S400x64 .f32 0x00000000#32) (ix2 p q)
      = ∑ k : Fin 512, a (ix2 p k) * b (ix2 k q) := by
  simp only [matmul]
  rw [Ideal.matmul_constant_zero_apply, ← Equiv.sum_comp (ValueIdx.contrEquiv1 dot_S400x512_S512x64_S400x64_1_0_0_1_n_n 512 rfl rfl).symm]
  refine Finset.sum_congr rfl fun k _ => ?_
  have hk := ValueIdx.contrEquiv1_symm_val dot_S400x512_S512x64_S400x64_1_0_0_1_n_n 512 rfl rfl k
  have el : dot_S400x512_S512x64_S400x64_1_0_0_1_n_n.lhsIdx (ix2 p q) ((ValueIdx.contrEquiv1 dot_S400x512_S512x64_S400x64_1_0_0_1_n_n 512 rfl rfl).symm k) = ix2 p k := funext fun c => Fin.ext (by
    match c with
    | ⟨0, _⟩ => exact lhs_l1proj_0 _ _
    | ⟨1, _⟩ => exact (lhs_l1proj_1 _ _).trans hk)
  have er : dot_S400x512_S512x64_S400x64_1_0_0_1_n_n.rhsIdx (ix2 p q) ((ValueIdx.contrEquiv1 dot_S400x512_S512x64_S400x64_1_0_0_1_n_n 512 rfl rfl).symm k) = ix2 k q := funext fun c => Fin.ext (by
    match c with
    | ⟨0, _⟩ => exact (rhs_l1proj_0 _ _).trans hk
    | ⟨1, _⟩ => exact rhs_l1proj_1 _ _)
  rw [el, er]

/-! ## The rectified hidden block at an index -/

/-- The word of the scalar zero the rectifier compares with is the extended real 0. -/
theorem layer1_relu_zero : (Scalar.ofBits .f32 0x00000000#32 : Ideal .f32) = 0 := Ideal.ofBits_zero_f32

/-- The hidden block before its change of format: at (p, l), the maximum with zero of the propagated sum plus the bias
    row's entry at l. The bias row is one row broadcast over the 400 rows, and the rectifier's zero is broadcast over the
    whole block. -/
theorem layer1_hidden_apply (a : FVec Ideal S400x10000 .bf16) (h : FVec Ideal S10000x512 .bf16) (b : FVec Ideal S1x512 .f32)
    (p : Fin 400) (l : Fin 512) :
    maximumf (addf (matmul dot_S400x10000_S10000x512_S400x512_1_0_0_1_n_n none a h (constant (F := Ideal) S400x512 .f32 0x00000000#32))
        (broadcastTo S400x512 b Facts₀.broadcasts_S1x512_S400x512))
      (broadcast S400x512 (Scalar.ofBits .f32 0x00000000#32 : Ideal .f32)) (ix2 p l)
      = max (∑ k : Fin 10000, a (ix2 p k) * h (ix2 k l) + b (ix2 (0 : Fin 1) l)) 0 := by
  rw [maximumf_apply, addf_apply, broadcast_apply, matmul_l1prop_apply, layer1_relu_zero]
  exact congrArg (fun t => max (_ + t) 0) (broadcastTo_1b_ab_apply b Facts₀.broadcasts_S1x512_S400x512 p l)

/-! ## The payload

The shape casts to the same shape and the changes of float format are identities on extended reals, so the payload at
(p, q) is the second product of the rectified hidden block with the weights, read entry by entry. -/

theorem pay1_apply (x0 : Vec Ideal S400x10000 .f32) (x1 : Vec Ideal S10000x512 .bf16) (x2 : Vec Ideal S1x512 .f32)
    (x3 : Vec Ideal S512x64 .bf16) (p : Fin 400) (q : Fin 64) :
    k1_pay1 (F := Ideal) x0 x1 x2 x3 (ix2 p q)
      = ∑ l : Fin 512, max (∑ k : Fin 10000, x0 (ix2 p k) * x1 (ix2 k l) + x2 (ix2 (0 : Fin 1) l)) 0 * x3 (ix2 l q) := by
  unfold k1_pay1
  rw [shapeCast_self, shapeCast_self, shapeCast_self, truncf_apply, matmul_l1proj_apply]
  refine Finset.sum_congr rfl fun l _ => ?_
  rw [truncf_apply]
  exact congrArg (· * x3 (ix2 l q)) (layer1_hidden_apply _ _ x2 p l)

end Cert.KernelIdeal.Val

end
-- ==== Proof.Region1.lean ====
/-
  The second kernel region, read as a value. Whatever the buffers hold when the region is entered, after its 25 grid
  points the output array holds  relu (adj · h + b) · w  of the arrays behind its four input windows: the adjacency (row
  block t at point t), the projected features, the bias row and the weights (each whole at every point). Point t writes
  rows 400 t … 400 t + 399 of the output.
-/
import proofs.«181139_g25151328485548_cont_8to1_846_2_alg».proof.Proof.Gen.KernelIdeal.Frame
import proofs.«181139_g25151328485548_cont_8to1_846_2_alg».proof.Proof.Spec
import proofs.«181139_g25151328485548_cont_8to1_846_2_alg».proof.Proof.Pay1
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx
open Cert.Spec

variable (V : (c : Dev nD) → (b : Ref sig .tc) → Buf (Elt Ideal) ((c : Thread nD τ).loc b))

/-- The arrays region 1 reads, at their literal types. -/
abbrev r1adj (c : Dev nD) : S10000x10000.Idx → EReal := V c main_arg1
abbrev r1h (c : Dev nD) : S10000x512.Idx → EReal := V c main_v4
abbrev r1b (c : Dev nD) : S1x512.Idx → EReal := V c main_v2
abbrev r1w (c : Dev nD) : S512x64.Idx → EReal := V c main_v1

/-! ## The pieces the region's value is read from -/

/-- The zero offsets of a whole-buffer access, as the constant function. -/
theorem zero_offsets : (![0, 0] : Fin 2 → Nat) = fun _ => 0 := funext fun a => by fin_cases a <;> rfl

/-- The whole output array as ONE function of the four arrays the region reads: at (i, j) the rectified
    propagation of the projected features through row i of the adjacency, times column j of the weights. -/
abbrev hiddenOut (adj : S10000x10000.Idx → EReal) (h : S10000x512.Idx → EReal) (b : S1x512.Idx → EReal)
    (w : S512x64.Idx → EReal) : S10000x64.Idx → EReal :=
  fun i => layer1 (cur2 adj) (cur2 b (0 : Fin 1)) (cur2 w) (cur2 h) ⟨(i 0).val, (i 0).isLt⟩ ⟨(i 1).val, (i 1).isLt⟩

/-- The index maps, decided over the 25 grid points: the adjacency window and the output window sit at row block t,
    column block 0; the three other windows are whole arrays at block (0, 0). -/
theorem layer1_index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-! ## Each input block, read off its array -/

/-- The adjacency block at point t is rows 400 t … 400 t + 399 of the adjacency. -/
theorem r1adj_block (c : Dev nD) (t : Fin cfg1.N) (y : S400x10000.Idx) (i : S10000x10000.Idx)
    (h0 : (i 0).val = 400 * t.val + (y 0).val) (h1 : (i 1).val = (y 1).val) :
    (iblk1 V c 0 t : Vec Ideal S400x10000 .f32) y = r1adj V c i := by
  obtain ⟨e0, e1, -⟩ := layer1_index_facts t
  unfold iblk1
  rw [View.read_apply]
  show V c main_arg1 _ = V c main_arg1 _
  refine congrArg (V c main_arg1) ?_
  funext a
  apply Fin.ext
  match a with
  | ⟨0, _⟩ => show win1_0.index t (0 : Fin 2) * 400 + 1 * (y 0).val = (i 0).val; omega
  | ⟨1, _⟩ => show win1_0.index t (1 : Fin 2) * 10000 + 1 * (y 1).val = (i 1).val; omega

/-- The projected-features block at every point is the whole array. -/
theorem r1h_block (c : Dev nD) (t : Fin cfg1.N) (y : S10000x512.Idx) :
    (iblk1 V c 1 t : Vec Ideal S10000x512 .bf16) y = r1h V c y := by
  obtain ⟨-, -, e0, e1, -⟩ := layer1_index_facts t
  unfold iblk1
  rw [View.read_apply]
  show V c main_v4 _ = V c main_v4 _
  refine congrArg (V c main_v4) ?_
  funext a
  apply Fin.ext
  match a with
  | ⟨0, _⟩ => show win1_1.index t (0 : Fin 2) * 10000 + 1 * (y 0).val = (y 0).val; omega
  | ⟨1, _⟩ => show win1_1.index t (1 : Fin 2) * 512 + 1 * (y 1).val = (y 1).val; omega

/-- The bias block at every point is the whole bias row. -/
theorem r1b_block (c : Dev nD) (t : Fin cfg1.N) (y : S1x512.Idx) :
    (iblk1 V c 2 t : Vec Ideal S1x512 .f32) y = r1b V c y := by
  obtain ⟨-, -, -, -, e0, e1, -⟩ := layer1_index_facts t
  unfold iblk1
  rw [View.read_apply]
  show V c main_v2 _ = V c main_v2 _
  refine congrArg (V c main_v2) ?_
  funext a
  apply Fin.ext
  match a with
  | ⟨0, _⟩ => show win1_2.index t (0 : Fin 2) * 1 + 1 * (y 0).val = (y 0).val; omega
  | ⟨1, _⟩ => show win1_2.index t (1 : Fin 2) * 512 + 1 * (y 1).val = (y 1).val; omega

/-- The weights block at every point is the whole weight matrix. -/
theorem r1w_block (c : Dev nD) (t : Fin cfg1.N) (y : S512x64.Idx) :
    (iblk1 V c 3 t : Vec Ideal S512x64 .bf16) y = r1w V c y := by
  obtain ⟨-, -, -, -, -, -, e0, e1, -⟩ := layer1_index_facts t
  unfold iblk1
  rw [View.read_apply]
  show V c main_v1 _ = V c main_v1 _
  refine congrArg (V c main_v1) ?_
  funext a
  apply Fin.ext
  match a with
  | ⟨0, _⟩ => show win1_3.index t (0 : Fin 2) * 512 + 1 * (y 0).val = (y 0).val; omega
  | ⟨1, _⟩ => show win1_3.index t (1 : Fin 2) * 64 + 1 * (y 1).val = (y 1).val; omega

/-! ## One entry of the block a point computes -/

/-- If a 400-row block x0 holds, in its row a, row r of the adjacency A, and the three other blocks are the whole arrays
    H, B, W, then the payload's sum at row a and column b is the layer at row r and column b of the arrays. -/
theorem layer1_of_blocks (A : S10000x10000.Idx → EReal) (H : S10000x512.Idx → EReal) (B : S1x512.Idx → EReal)
    (W : S512x64.Idx → EReal) (x0 : Vec Ideal S400x10000 .f32) (x1 : Vec Ideal S10000x512 .bf16)
    (x2 : Vec Ideal S1x512 .f32) (x3 : Vec Ideal S512x64 .bf16) (a : Fin 400) (b : Fin 64) (r : Fin 10000) (q : Fin 64)
    (h0 : ∀ k : Fin 10000, x0 (ix2 a k) = A (ix2 r k)) (h1 : ∀ y, x1 y = H y) (h2 : ∀ y, x2 y = B y)
    (h3 : ∀ y, x3 y = W y) (hq : q.val = b.val) :
    (∑ l : Fin 512, max (∑ k : Fin 10000, x0 (ix2 a k) * x1 (ix2 k l) + x2 (ix2 (0 : Fin 1) l)) 0 * x3 (ix2 l b))
      = layer1 (cur2 A) (cur2 B (0 : Fin 1)) (cur2 W) (cur2 H) r q := by
  obtain rfl : q = b := Fin.ext hq
  unfold layer1 cur2
  refine Finset.sum_congr rfl fun l _ => ?_
  rw [h3, h2]
  refine congrArg (fun s => max (s + B (ix2 (0 : Fin 1) l)) 0 * W (ix2 l q)) ?_
  refine Finset.sum_congr rfl fun k _ => ?_
  rw [h0, h1]

/-! ## What point t writes back, and the whole array -/

/-- WHAT POINT t WRITES BACK is block t of the whole-array function of the four arrays. -/
theorem layer1_flushed_eq (c : Dev nD) (t : Fin cfg1.N) :
    (dat1 V c).flushed 4 t = ((cfg1.win 4).blk t).view.read (Elt Ideal)
      (hiddenOut (r1adj V c) (r1h V c) (r1b V c) (r1w V c)) := by
  show (cfg1.win 4).cut (grid1.coords t) ((dat1 V c).after 4 t) = _
  rw [after1_4]
  unfold out1_4
  rw [View.canon_unit_zero zero_offsets]
  simp only [View.ld_unit_zero (S := S400x10000) zero_offsets, View.ld_unit_zero (S := S10000x512) zero_offsets,
    View.ld_unit_zero (S := S1x512) zero_offsets, View.ld_unit_zero (S := S512x64) zero_offsets]
  obtain ⟨-, -, -, -, -, -, -, -, e0, e1⟩ := layer1_index_facts t
  funext j
  obtain ⟨a, b, rfl⟩ : ∃ (a : Fin 400) (b : Fin 64), j = ix2 a b := ⟨j 0, j 1, eq_ix2 j⟩
  show k1_pay1 (iblk1 V c 0 t) (iblk1 V c 1 t) (iblk1 V c 2 t) (iblk1 V c 3 t) (ix2 a b)
    = hiddenOut (r1adj V c) (r1h V c) (r1b V c) (r1w V c) (((cfg1.win 4).blk t).view.emb (ix2 a b))
  refine (pay1_apply _ _ _ _ a b).trans ?_
  exact layer1_of_blocks (r1adj V c) (r1h V c) (r1b V c) (r1w V c) (iblk1 V c 0 t) (iblk1 V c 1 t) (iblk1 V c 2 t)
    (iblk1 V c 3 t) a b ⟨_, _⟩ ⟨_, _⟩
    (fun k => r1adj_block V c t (ix2 a k) (ix2 _ k)
      (show win1_4.index t (0 : Fin 2) * 400 + 1 * a.val = 400 * t.val + a.val by omega) rfl)
    (r1h_block V c t) (r1b_block V c t) (r1w_block V c t)
    (show win1_4.index t (1 : Fin 2) * 64 + 1 * b.val = b.val by omega)

/-- An index of the output array is in point t's block iff each coordinate is in the block's range on its axis. -/
theorem layer1_mem_blk (t : Fin cfg1.N) (i : S10000x64.Idx) :
    i ∈ ((cfg1.win 4).blk t).view.set ↔ ∀ a : Fin 2, win1_4.index t a * S400x64.size a ≤ (i a).val ∧ (i a).val < win1_4.index t a * S400x64.size a + S400x64.size a := by
  show i ∈ ((View.whole main_v5).slice (win1_4.rect t)).set ↔ _
  rw [View.set_slice_whole, Rect.mem_set_unit]
  exact Iff.rfl

/-- Every index of the output array is in the block of the point its row falls in: row r belongs to point r / 400. -/
theorem layer1_cover (i : S10000x64.Idx) :
    ∃ t : Fin cfg1.N, (cfg1.win 4).flush t = true ∧ i ∈ ((cfg1.win 4).blk t).view.set := by
  have hi0 : (i 0).val < 10000 := (i 0).isLt
  have hi1 : (i 1).val < 64 := (i 1).isLt
  obtain ⟨t, ht⟩ : ∃ t : Fin cfg1.N, t.val = (i 0).val / 400 :=
    ⟨⟨(i 0).val / 400, by show (i 0).val / 400 < 25; omega⟩, rfl⟩
  obtain ⟨-, -, -, -, -, -, -, -, e0, e1⟩ := layer1_index_facts t
  refine ⟨t, flush1_4 t, ?_⟩
  rw [layer1_mem_blk]
  intro a
  match a with
  | ⟨0, _⟩ =>
    show win1_4.index t (0 : Fin 2) * 400 ≤ (i 0).val ∧ (i 0).val < win1_4.index t (0 : Fin 2) * 400 + 400
    omega
  | ⟨1, _⟩ =>
    show win1_4.index t (1 : Fin 2) * 64 ≤ (i 1).val ∧ (i 1).val < win1_4.index t (1 : Fin 2) * 64 + 64
    omega

/-- THE OUTPUT ARRAY after the region is the whole-array function of the four arrays. -/
theorem layer1_final (c : Dev nD) :
    (dat1 V c).arrAt 4 cfg1.N = hiddenOut (r1adj V c) (r1h V c) (r1b V c) (r1w V c) :=
  (dat1 V c).arrAt_eq_of_cover 4 (hiddenOut (r1adj V c) (r1h V c) (r1b V c) (r1w V c))
    (fun t _ => layer1_flushed_eq V c t) layer1_cover

/-- REGION 1: the output array after the region, at row p and column q. -/
theorem region1_value (c : Dev nD) (p : Fin 10000) (q : Fin 64) :
    (dat1 V c).arrAt 4 cfg1.N (ix2 p q)
      = layer1 (cur2 (r1adj V c)) (cur2 (r1b V c) (0 : Fin 1)) (cur2 (r1w V c)) (cur2 (r1h V c)) p q := by
  rw [layer1_final]

end Cert.KernelIdeal.Val

end
-- ==== Proof.Pay2.lean ====
/-
  The body of the third kernel at one grid point, as a value: with the row of logits  o j = ∑ k, a (p, k) * g (k, j) + b (0, j)
  it writes, at row p and column q of the 400 x 64 output block,  o q - (log (∑ j, exp (o j - M)) + M)  where M is the
  maximum of the row folded from -∞: the log-softmax with the maximum added back to the log before the one subtraction.
-/
import proofs.«181139_g25151328485548_cont_8to1_846_2_alg».proof.Proof.Gen.KernelIdeal.Skeleton
import proofs.«181139_g25151328485548_cont_8to1_846_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.ValueIdx
open Cert.Spec

/-! ## Column layouts: a vector kept as a one-column matrix -/

/-- An `[a]` array viewed `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The product at an index

The operand indices of the product at output index `i` and contraction index `q`, axis by axis: the left operand is read at
(row of `i`, `q`), the right operand at (`q`, column of `i`). -/

theorem lhs_dot2_0 (i : S400x64.Idx) (q : dot_S400x10000_S10000x64_S400x64_1_0_0_1_n_n.contr.Idx) :
    (dot_S400x10000_S10000x64_S400x64_1_0_0_1_n_n.lhsIdx i q 0).val = (i 0).val := by
  unfold DotDims.lhsIdx
  rw [dif_neg (show ¬(0 : Fin S400x10000.rank) ∈ dot_S400x10000_S10000x64_S400x64_1_0_0_1_n_n.lhsBatch by decide), dif_pos (show (0 : Fin S400x10000.rank) ∈ dot_S400x10000_S10000x64_S400x64_1_0_0_1_n_n.lhsNonContracting by decide)]
  rfl
theorem lhs_dot2_1 (i : S400x64.Idx) (q : dot_S400x10000_S10000x64_S400x64_1_0_0_1_n_n.contr.Idx) :
    (dot_S400x10000_S10000x64_S400x64_1_0_0_1_n_n.lhsIdx i q 1).val = (q ⟨0, by decide⟩).val :=
  dot_S400x10000_S10000x64_S400x64_1_0_0_1_n_n.lhsIdx_val_of_single rfl i q
theorem rhs_dot2_0 (i : S400x64.Idx) (q : dot_S400x10000_S10000x64_S400x64_1_0_0_1_n_n.contr.Idx) :
    (dot_S400x10000_S10000x64_S400x64_1_0_0_1_n_n.rhsIdx i q 0).val = (q ⟨0, by decide⟩).val :=
  dot_S400x10000_S10000x64_S400x64_1_0_0_1_n_n.rhsIdx_val_of_single rfl i q
theorem rhs_dot2_1 (i : S400x64.Idx) (q : dot_S400x10000_S10000x64_S400x64_1_0_0_1_n_n.contr.Idx) :
    (dot_S400x10000_S10000x64_S400x64_1_0_0_1_n_n.rhsIdx i q 1).val = (i 1).val := by
  unfold DotDims.rhsIdx
  rw [dif_neg (show ¬(1 : Fin S10000x64.rank) ∈ dot_S400x10000_S10000x64_S400x64_1_0_0_1_n_n.rhsBatch by decide), dif_pos (show (1 : Fin S10000x64.rank) ∈ dot_S400x10000_S10000x64_S400x64_1_0_0_1_n_n.rhsNonContracting by decide)]
  rfl

/-- The product into the zero accumulator, at row `p` and column `q`: the sum over the contraction coordinate. -/
theorem matmul2_apply {φ₁ φ₂ : FTy} (a : FVec Ideal S400x10000 φ₁) (g : FVec Ideal S10000x64 φ₂) (p : Fin 400) (q : Fin 64) :
    matmul dot_S400x10000_S10000x64_S400x64_1_0_0_1_n_n none a g (constant (F := Ideal) S400x64 .f32 0x00000000#32) (ix2 p q)
      = ∑ k : Fin 10000, a (ix2 p k) * g (ix2 k q) := by
  simp only [matmul]
  rw [Ideal.matmul_constant_zero_apply, ← Equiv.sum_comp (ValueIdx.contrEquiv1 dot_S400x10000_S10000x64_S400x64_1_0_0_1_n_n 10000 rfl rfl).symm]
  refine Finset.sum_congr rfl fun k _ => ?_
  have hk := ValueIdx.contrEquiv1_symm_val dot_S400x10000_S10000x64_S400x64_1_0_0_1_n_n 10000 rfl rfl k
  have el : dot_S400x10000_S10000x64_S400x64_1_0_0_1_n_n.lhsIdx (ix2 p q) ((ValueIdx.contrEquiv1 dot_S400x10000_S10000x64_S400x64_1_0_0_1_n_n 10000 rfl rfl).symm k) = ix2 p k := funext fun ax => Fin.ext (by
    match ax with
    | ⟨0, _⟩ => exact lhs_dot2_0 _ _
    | ⟨1, _⟩ => exact (lhs_dot2_1 _ _).trans hk)
  have er : dot_S400x10000_S10000x64_S400x64_1_0_0_1_n_n.rhsIdx (ix2 p q) ((ValueIdx.contrEquiv1 dot_S400x10000_S10000x64_S400x64_1_0_0_1_n_n 10000 rfl rfl).symm k) = ix2 k q := funext fun ax => Fin.ext (by
    match ax with
    | ⟨0, _⟩ => exact (rhs_dot2_0 _ _).trans hk
    | ⟨1, _⟩ => exact rhs_dot2_1 _ _)
  rw [el, er]

/-! ## The lane reductions at a row -/

/-- The index a lane reduction of a `[400, 64]` block reads at row `p` and lane `k` is `(p, k)`. -/
theorem lift_row (h : S400x64.Reduces [1] S400) (p : Fin 400) (k : Fin 64) : h.lift (ix1 p) k = ix2 p k :=
  funext fun ax => Fin.ext (by
    match ax with
    | ⟨0, _⟩ => rfl
    | ⟨1, _⟩ => rfl)

/-- The pattern the maximum is folded from is `-∞`. -/
theorem ofBits_negInf : Ideal.ofBits .f32 0xFF800000#32 = (⊥ : EReal) := by simp [Ideal.ofBits, Ideal.ieee]

/-- The lane maximum folded from `-∞`, at row `p`, is the row's maximum. -/
theorem rowMax_apply (v : FVec Ideal S400x64 .f32) (h : S400x64.Reduces [1] S400) (hφ : FKind.Formats .f32)
    (hacc : (0xFF800000#32 : BitVec FTy.f32.bits) = FKind.maximumf.neutral .f32 hφ) (p : Fin 400) :
    multiReduction (F := Ideal) .maximumf [1] S400 v 0xFF800000#32 h hφ hacc (ix1 p)
      = rowMax (fun k : Fin 64 => v (ix2 p k)) := by
  refine (Ideal.multiReduction_maximumf_single v 0xFF800000#32 h hφ hacc (ix1 p)).trans ?_
  have hf : (v ∘ h.lift (ix1 p)) = fun k : Fin 64 => v (ix2 p k) := funext fun k => congrArg v (lift_row h p k)
  show (Finset.univ : Finset (Fin 64)).fold max (Ideal.ofBits .f32 0xFF800000#32) (v ∘ h.lift (ix1 p))
    = (Finset.univ : Finset (Fin 64)).fold max ⊥ (fun k : Fin 64 => v (ix2 p k))
  rw [ofBits_negInf, hf]
  rfl

/-- The lane sum from zero, at row `p`, is the sum of the row. -/
theorem rowSum_apply (v : FVec Ideal S400x64 .f32) (h : S400x64.Reduces [1] S400) (hφ : FKind.Formats .f32)
    (hacc : (0x00000000#32 : BitVec FTy.f32.bits) = FKind.add.neutral .f32 hφ) (p : Fin 400) :
    multiReduction (F := Ideal) .add [1] S400 v 0x00000000#32 h hφ hacc (ix1 p) = ∑ k : Fin 64, v (ix2 p k) := by
  refine (Ideal.multiReduction_add_single v 0x00000000#32 h hφ hacc (ix1 p)).trans ?_
  show ∑ k : Fin 64, v (h.lift (ix1 p) k) = ∑ k : Fin 64, v (ix2 p k)
  exact Finset.sum_congr rfl fun k _ => congrArg v (lift_row h p k)

/-! ## The body in two parts: the block of logits, and the log-softmax of a block -/

/-- The block of logits: the product into zero plus the bias row broadcast over the rows. -/
def logitsBlock (x0 : Vec Ideal S400x10000 .f32) (x1 : Vec Ideal S10000x64 .bf16) (x2 : Vec Ideal S1x64 .f32) :
    FVec Ideal S400x64 .f32 :=
  have a : FVec Ideal S400x10000 .bf16 := truncf .bf16 x0 bitsLt_bf16_f32
  have g : FVec Ideal S10000x64 .bf16 := shapeCast S10000x64 x1 shapeCasts_S10000x64_S10000x64
  have b : FVec Ideal S1x64 .f32 := shapeCast S1x64 x2 shapeCasts_S1x64_S1x64
  addf (matmul dot_S400x10000_S10000x64_S400x64_1_0_0_1_n_n none a g (constant S400x64 .f32 0x00000000#32))
    (broadcastTo S400x64 b broadcasts_S1x64_S400x64)

/-- The column of row maxima of a block, kept as a `[400, 1]` matrix. -/
def maxColumn (v : FVec Ideal S400x64 .f32) : FVec Ideal S400x1 .f32 :=
  shapeCast S400x1 (multiReduction .maximumf [1] S400 v 0xFF800000#32 reduces_S400x64_S400 (.inl rfl) rfl) shapeCasts_S400_S400x1

/-- The exponentials of a block shifted by its row maxima. -/
def shiftedExp (v : FVec Ideal S400x64 .f32) : FVec Ideal S400x64 .f32 :=
  exp (subf v (broadcastTo S400x64 (maxColumn v) broadcasts_S400x1_S400x64))

/-- The column subtracted at the end: the log of the row sums of the shifted exponentials, plus the row maxima. -/
def logPlusMaxColumn (v : FVec Ideal S400x64 .f32) : FVec Ideal S400x1 .f32 :=
  addf (log (shapeCast S400x1 (multiReduction .add [1] S400 (shiftedExp v) 0x00000000#32 reduces_S400x64_S400 (.inl rfl) rfl)
    shapeCasts_S400_S400x1)) (maxColumn v)

/-- The body is the block of logits minus that column broadcast over the lanes. -/
theorem k2_pay1_eq (x0 : Vec Ideal S400x10000 .f32) (x1 : Vec Ideal S10000x64 .bf16) (x2 : Vec Ideal S1x64 .f32) :
    k2_pay1 (F := Ideal) x0 x1 x2
      = subf (logitsBlock x0 x1 x2) (broadcastTo S400x64 (logPlusMaxColumn (logitsBlock x0 x1 x2)) broadcasts_S400x1_S400x64) := rfl

/-- The block of logits at row `p` and column `j`. -/
theorem logitsBlock_apply (x0 : Vec Ideal S400x10000 .f32) (x1 : Vec Ideal S10000x64 .bf16) (x2 : Vec Ideal S1x64 .f32)
    (p : Fin 400) (j : Fin 64) :
    logitsBlock x0 x1 x2 (ix2 p j) = ∑ k : Fin 10000, x0 (ix2 p k) * x1 (ix2 k j) + x2 (ix2 (0 : Fin 1) j) := by
  unfold logitsBlock
  refine (addf_apply _ _ (ix2 p j)).trans ?_
  rw [matmul2_apply, broadcastTo_1b_ab_apply, shapeCast_self, shapeCast_self]
  rfl

/-- The column of maxima at row `p`. -/
theorem maxColumn_apply (v : FVec Ideal S400x64 .f32) (p : Fin 400) (u : Fin 1) :
    maxColumn v (ix2 p u) = rowMax (fun k : Fin 64 => v (ix2 p k)) := by
  unfold maxColumn
  exact (shapeCast_a_a1_apply _ _ p u).trans (rowMax_apply v _ _ _ p)

/-- The shifted exponentials at row `p` and lane `k`. -/
theorem shiftedExp_apply (v : FVec Ideal S400x64 .f32) (p : Fin 400) (k : Fin 64) :
    shiftedExp v (ix2 p k)
      = Ideal.exp (v (ix2 p k) - rowMax (fun k : Fin 64 => v (ix2 p k))) := by
  unfold shiftedExp
  show Ideal.exp (v (ix2 p k) - broadcastTo S400x64 (maxColumn v) broadcasts_S400x1_S400x64 (ix2 p k)) = _
  rw [broadcastTo_a1_ab_apply, maxColumn_apply]

/-- The subtracted column at row `p`. -/
theorem logPlusMaxColumn_apply (v : FVec Ideal S400x64 .f32) (p : Fin 400) (u : Fin 1) :
    logPlusMaxColumn v (ix2 p u)
      = logSumShifted (fun k : Fin 64 => v (ix2 p k)) + rowMax (fun k : Fin 64 => v (ix2 p k)) := by
  unfold logPlusMaxColumn logSumShifted
  show Ideal.log (shapeCast S400x1 (multiReduction (F := Ideal) .add [1] S400 (shiftedExp v) 0x00000000#32 reduces_S400x64_S400 (.inl rfl) rfl)
    shapeCasts_S400_S400x1 (ix2 p u)) + maxColumn v (ix2 p u) = _
  have hs : shapeCast S400x1 (multiReduction (F := Ideal) .add [1] S400 (shiftedExp v) 0x00000000#32 reduces_S400x64_S400 (.inl rfl) rfl)
      shapeCasts_S400_S400x1 (ix2 p u) = ∑ k : Fin 64, Ideal.exp (v (ix2 p k) - rowMax (fun k : Fin 64 => v (ix2 p k))) :=
    ((shapeCast_a_a1_apply _ _ p u).trans (rowSum_apply (shiftedExp v) _ _ _ p)).trans
      (Finset.sum_congr rfl fun k _ => shiftedExp_apply v p k)
  exact congrArg₂ (fun s m => Ideal.log s + m) hs (maxColumn_apply v p u)

theorem pay2_apply (x0 : Vec Ideal S400x10000 .f32) (x1 : Vec Ideal S10000x64 .bf16) (x2 : Vec Ideal S1x64 .f32)
    (p : Fin 400) (q : Fin 64) :
    k2_pay1 (F := Ideal) x0 x1 x2 (ix2 p q)
      = logPlusMax (fun j : Fin 64 => ∑ k : Fin 10000, x0 (ix2 p k) * x1 (ix2 k j) + x2 (ix2 (0 : Fin 1) j)) q := by
  rw [k2_pay1_eq]
  have ho : (fun j : Fin 64 => logitsBlock x0 x1 x2 (ix2 p j))
      = fun j : Fin 64 => ∑ k : Fin 10000, x0 (ix2 p k) * x1 (ix2 k j) + x2 (ix2 (0 : Fin 1) j) :=
    funext fun j => logitsBlock_apply x0 x1 x2 p j
  rw [← ho]
  unfold logPlusMax
  refine (subf_apply _ _ (ix2 p q)).trans ?_
  rw [broadcastTo_a1_ab_apply, logPlusMaxColumn_apply]

end Cert.KernelIdeal.Val

end
-- ==== Proof.Region2.lean ====
/-
  The third kernel region, read as a value. Whatever the buffers hold when the region is entered, after its 25 grid
  points the output array holds the row-wise log-softmax (maximum added back to the log, one subtraction) of the logits
  adj · g + b  of the arrays behind its three input windows: the adjacency (row block t at point t), the projected hidden
  state and the bias row (each whole at every point). Point t writes rows 400 t … 400 t + 399 of the output.
-/
import proofs.«181139_g25151328485548_cont_8to1_846_2_alg».proof.Proof.Gen.KernelIdeal.Frame
import proofs.«181139_g25151328485548_cont_8to1_846_2_alg».proof.Proof.Spec
import proofs.«181139_g25151328485548_cont_8to1_846_2_alg».proof.Proof.Pay2
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx
open Cert.Spec

variable (V : (c : Dev nD) → (b : Ref sig .tc) → Buf (Elt Ideal) ((c : Thread nD τ).loc b))

/-- The arrays region 2 reads, at their literal types. -/
abbrev r2adj (c : Dev nD) : S10000x10000.Idx → EReal := V c main_arg1
abbrev r2g (c : Dev nD) : S10000x64.Idx → EReal := V c main_v5
abbrev r2b (c : Dev nD) : S1x64.Idx → EReal := V c main_v3

/-! ## The grid, the index maps and the blocks -/

/-- The zero offsets, as the constant function. -/
theorem zero_offsets2 : (![0, 0] : Fin 2 → Nat) = fun _ => 0 :=
  funext fun a => match a with | ⟨0, _⟩ => rfl | ⟨1, _⟩ => rfl

/-- The region has 25 grid points. -/
theorem points2 : cfg2.N = 25 := by decide +kernel

/-- The index maps, decided over the 25 points: the adjacency's block and the output's block are row block t, the
    projected hidden state and the bias row are whole. -/
theorem index_maps2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row a of block t is row 400 t + a of the array. -/
def blockRow (t : Fin cfg2.N) (a : Fin 400) : Fin 10000 :=
  ⟨400 * t.val + a.val, by have ht : t.val < 25 := lt_of_lt_of_eq t.isLt points2; omega⟩

/-- The whole output array as one function of the three arrays the region reads: the log-softmax of the row of logits. -/
abbrev G2 (adj : S10000x10000.Idx → EReal) (g : S10000x64.Idx → EReal) (b : S1x64.Idx → EReal) : S10000x64.Idx → EReal :=
  fun i => logPlusMax (layer2 (cur2 adj) (cur2 b (0 : Fin 1)) (cur2 g) ⟨(i 0).val, (i 0).isLt⟩) ⟨(i 1).val, (i 1).isLt⟩

theorem G2_apply (adj : S10000x10000.Idx → EReal) (g : S10000x64.Idx → EReal) (b : S1x64.Idx → EReal) (p : Fin 10000) (q : Fin 64) :
    G2 adj g b (ix2 p q) = logPlusMax (layer2 (cur2 adj) (cur2 b (0 : Fin 1)) (cur2 g) p) q := rfl

/-- The adjacency's block at point t, at row a and column k, is the adjacency at row 400 t + a and column k. -/
theorem adj_block (c : Dev nD) (t : Fin cfg2.N) (a : Fin 400) (k : Fin 10000) :
    (iblk2 V c 0 t : S400x10000.Idx → EReal) (ix2 a k) = r2adj V c (ix2 (blockRow t a) k) := by
  show V c main_arg1 (((cfg2.win 0).blk t).view.emb (ix2 a k)) = V c main_arg1 (ix2 (blockRow t a) k)
  refine congrArg (V c main_arg1) ?_
  obtain ⟨e00, e01, -⟩ := index_maps2 t
  funext x; apply Fin.ext
  match x with
  | ⟨0, _⟩ => show win2_0.index t (0 : Fin 2) * 400 + 1 * a.val = 400 * t.val + a.val; rw [e00]; omega
  | ⟨1, _⟩ => show win2_0.index t (1 : Fin 2) * 10000 + 1 * k.val = k.val; rw [e01]; omega

/-- The projected hidden state's block at every point is the whole array. -/
theorem g_block (c : Dev nD) (t : Fin cfg2.N) (k : Fin 10000) (j : Fin 64) :
    (iblk2 V c 1 t : S10000x64.Idx → EReal) (ix2 k j) = r2g V c (ix2 k j) := by
  show V c main_v5 (((cfg2.win 1).blk t).view.emb (ix2 k j)) = V c main_v5 (ix2 k j)
  refine congrArg (V c main_v5) ?_
  obtain ⟨-, -, e10, e11, -⟩ := index_maps2 t
  funext x; apply Fin.ext
  match x with
  | ⟨0, _⟩ => show win2_1.index t (0 : Fin 2) * 10000 + 1 * k.val = k.val; rw [e10]; omega
  | ⟨1, _⟩ => show win2_1.index t (1 : Fin 2) * 64 + 1 * j.val = j.val; rw [e11]; omega

/-- The bias row's block at every point is the whole row. -/
theorem b_block (c : Dev nD) (t : Fin cfg2.N) (j : Fin 64) :
    (iblk2 V c 2 t : S1x64.Idx → EReal) (ix2 (0 : Fin 1) j) = r2b V c (ix2 (0 : Fin 1) j) := by
  show V c main_v3 (((cfg2.win 2).blk t).view.emb (ix2 (0 : Fin 1) j)) = V c main_v3 (ix2 (0 : Fin 1) j)
  refine congrArg (V c main_v3) ?_
  obtain ⟨-, -, -, -, e20, e21, -⟩ := index_maps2 t
  funext x; apply Fin.ext
  match x with
  | ⟨0, _⟩ => show win2_2.index t (0 : Fin 2) * 1 + 1 * (0 : Fin 1).val = (0 : Fin 1).val; rw [e20]; rfl
  | ⟨1, _⟩ => show win2_2.index t (1 : Fin 2) * 64 + 1 * j.val = j.val; rw [e21]; omega

/-- Row a, column b of the output's block at point t sits at row 400 t + a, column b of the output array. -/
theorem out_emb (t : Fin cfg2.N) (a : Fin 400) (b : Fin 64) :
    (((cfg2.win 3).blk t).view.emb (ix2 a b) : S10000x64.Idx) = ix2 (blockRow t a) b := by
  obtain ⟨-, -, -, -, -, -, e30, e31⟩ := index_maps2 t
  funext x; apply Fin.ext
  match x with
  | ⟨0, _⟩ => show win2_3.index t (0 : Fin 2) * 400 + 1 * a.val = 400 * t.val + a.val; rw [e30]; omega
  | ⟨1, _⟩ => show win2_3.index t (1 : Fin 2) * 64 + 1 * b.val = b.val; rw [e31]; omega

/-- The row of logits of a block is the row of logits of the arrays, once each block entry is read off its array. -/
theorem logits_row (x0 : Vec Ideal S400x10000 .f32) (x1 : Vec Ideal S10000x64 .bf16) (x2 : Vec Ideal S1x64 .f32)
    (adj : S10000x10000.Idx → EReal) (g : S10000x64.Idx → EReal) (bias : S1x64.Idx → EReal) (a : Fin 400) (r : Fin 10000)
    (h0 : ∀ k : Fin 10000, x0 (ix2 a k) = adj (ix2 r k)) (h1 : ∀ (k : Fin 10000) (j : Fin 64), x1 (ix2 k j) = g (ix2 k j))
    (h2 : ∀ j : Fin 64, x2 (ix2 (0 : Fin 1) j) = bias (ix2 (0 : Fin 1) j)) :
    (fun j : Fin 64 => ∑ k : Fin 10000, x0 (ix2 a k) * x1 (ix2 k j) + x2 (ix2 (0 : Fin 1) j))
      = layer2 (cur2 adj) (cur2 bias (0 : Fin 1)) (cur2 g) r := by
  funext j
  show (∑ k : Fin 10000, x0 (ix2 a k) * x1 (ix2 k j)) + x2 (ix2 (0 : Fin 1) j)
    = (∑ k : Fin 10000, adj (ix2 r k) * g (ix2 k j)) + bias (ix2 (0 : Fin 1) j)
  rw [h2 j]
  refine congrArg (fun s : EReal => s + bias (ix2 (0 : Fin 1) j)) ?_
  exact Finset.sum_congr rfl fun k _ => by rw [h0 k, h1 k j]

/-! ## What each point writes back -/

/-- WHAT POINT t WRITES BACK is block t of the whole-array function of the arrays as the region finds them. -/
theorem flushed2_eq (c : Dev nD) (t : Fin cfg2.N) :
    (dat2 V c).flushed 3 t = ((cfg2.win 3).blk t).view.read (Elt Ideal) (G2 (r2adj V c) (r2g V c) (r2b V c)) := by
  show (cfg2.win 3).cut (grid2.coords t) ((dat2 V c).after 3 t) = _
  rw [after2_3]
  unfold out2_3
  rw [View.canon_unit_zero zero_offsets2]
  simp only [View.ld_unit_zero (S := S400x10000) zero_offsets2, View.ld_unit_zero (S := S10000x64) zero_offsets2,
    View.ld_unit_zero (S := S1x64) zero_offsets2]
  refine funext fun (j : S400x64.Idx) => ?_
  obtain ⟨a, b, rfl⟩ : ∃ (a : Fin 400) (b : Fin 64), j = ix2 a b := ⟨j 0, j 1, eq_ix2 j⟩
  show k2_pay1 (F := Ideal) (iblk2 V c 0 t) (iblk2 V c 1 t) (iblk2 V c 2 t) (ix2 a b)
    = G2 (r2adj V c) (r2g V c) (r2b V c) (((cfg2.win 3).blk t).view.emb (ix2 a b))
  refine (pay2_apply (iblk2 V c 0 t) (iblk2 V c 1 t) (iblk2 V c 2 t) a b).trans ?_
  rw [out_emb t a b, G2_apply]
  exact congrArg (fun o : Fin 64 → EReal => logPlusMax o b)
    (logits_row (iblk2 V c 0 t) (iblk2 V c 1 t) (iblk2 V c 2 t) (r2adj V c) (r2g V c) (r2b V c) a (blockRow t a)
      (adj_block V c t a) (g_block V c t) (b_block V c t))

/-! ## The cover and the array -/

/-- An index of the output array is in point t's block iff each coordinate is in the block's range on its axis. -/
theorem mem_out_block (t : Fin cfg2.N) (i : S10000x64.Idx) :
    i ∈ ((cfg2.win 3).blk t).view.set ↔ ∀ a : Fin 2, win2_3.index t a * S400x64.size a ≤ (i a).val ∧ (i a).val < win2_3.index t a * S400x64.size a + S400x64.size a := by
  show i ∈ ((View.whole main_v6).slice (win2_3.rect t)).set ↔ _
  rw [View.set_slice_whole, Rect.mem_set_unit]
  exact Iff.rfl

/-- Every index of the output array is in the block of the point its row falls in: row r is in block r / 400. -/
theorem cover2 (i : S10000x64.Idx) : ∃ t : Fin cfg2.N, (cfg2.win 3).flush t = true ∧ i ∈ ((cfg2.win 3).blk t).view.set := by
  have hi0 : (i 0).val < 10000 := (i 0).isLt
  have hi1 : (i 1).val < 64 := (i 1).isLt
  obtain ⟨t, ht⟩ : ∃ t : Fin cfg2.N, t.val = (i 0).val / 400 := ⟨⟨(i 0).val / 400, by rw [points2]; omega⟩, rfl⟩
  refine ⟨t, flush2_3 t, ?_⟩
  rw [mem_out_block]
  obtain ⟨-, -, -, -, -, -, e30, e31⟩ := index_maps2 t
  intro a
  match a with
  | ⟨0, _⟩ => show win2_3.index t (0 : Fin 2) * 400 ≤ (i 0).val ∧ (i 0).val < win2_3.index t (0 : Fin 2) * 400 + 400; rw [e30, ht]; omega
  | ⟨1, _⟩ => show win2_3.index t (1 : Fin 2) * 64 ≤ (i 1).val ∧ (i 1).val < win2_3.index t (1 : Fin 2) * 64 + 64; rw [e31]; omega

/-- THE ARRAY after the region: the whole-array function of the arrays the region finds. -/
theorem final2 (c : Dev nD) : (dat2 V c).arrAt 3 cfg2.N = G2 (r2adj V c) (r2g V c) (r2b V c) :=
  (dat2 V c).arrAt_eq_of_cover 3 (G2 (r2adj V c) (r2g V c) (r2b V c)) (fun t _ => flushed2_eq V c t) cover2

/-- REGION 2: the output array after the region, at row p and column q. -/
theorem region2_value (c : Dev nD) (p : Fin 10000) (q : Fin 64) :
    (dat2 V c).arrAt 3 cfg2.N (ix2 p q)
      = logPlusMax (layer2 (cur2 (r2adj V c)) (cur2 (r2b V c) (0 : Fin 1)) (cur2 (r2g V c)) p) q :=
  (congrFun (final2 V c) (ix2 p q)).trans (G2_apply _ _ _ p q)

end Cert.KernelIdeal.Val

end
-- ==== Proof.HostVals.lean ====
/-
  The buffers the first region finds. Before the first kernel the program converts the two weight matrices to a narrower
  float format (the identity on extended reals) and reshapes the two bias vectors to one-row matrices; nothing writes an
  argument. So at the first region's entry the arguments hold what they were launched with, the converted weights are the
  weights, and entry (0, l) of a reshaped bias is entry l of the bias.
-/
import proofs.«181139_g25151328485548_cont_8to1_846_2_alg».proof.Proof.Gen.KernelIdeal.Frame
import proofs.«181139_g25151328485548_cont_8to1_846_2_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Val

open Cert.KernelIdeal Cert.KernelIdeal.Gen Idealize.ShloMosaic Idealize.ShloMosaic.TcCoe Idealize.SL.Sem
open Idealize.ShloMosaic.StableHlo
open Idealize.ShloMosaic.ValueIdx

/-- A vector reshaped to a one-row matrix: entry (0, l) of the matrix is entry l of the vector, since both sit at
    row-major position l. -/
theorem addRow_apply {n : Nat} (v : (⟨1, ![n]⟩ : Shape).Idx → EReal)
    (h : (⟨1, ![n]⟩ : Shape).ShapeCasts ⟨2, ![1, n]⟩) (l : Fin n) :
    shapeCast (⟨2, ![1, n]⟩ : Shape) v h (ix2 (0 : Fin 1) l) = v (ix1 l) := by
  refine shapeCast_apply v h (ix2 (0 : Fin 1) l) (ix1 l) ?_
  rw [Shape.rowMajor_val_two, Shape.rowMajor_val_one]
  show l.val = 0 * n + l.val
  omega

variable (m : (ℓ : Loc nD τ sig) → Buf (Elt Ideal) ℓ) (ρ : Dev nD → PrngReg)

/-- The feature matrix at the first region's entry is the launched one. -/
theorem entry_x (c : Dev nD) : W1 m ρ c (Proc.devRef .tc main_arg0) = m ((c : Thread nD τ).loc main_arg0) := by
  -- no host operation writes this argument, and the launch memory at it is `m`
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- The adjacency at the first region's entry is the launched one. -/
theorem entry_adj (c : Dev nD) : W1 m ρ c (Proc.devRef .tc main_arg1) = m ((c : Thread nD τ).loc main_arg1) := by
  -- no host operation writes this argument, and the launch memory at it is `m`
  calc W1 m ρ c (Proc.devRef .tc main_arg1)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- The converted first weight matrix is the first weight matrix, entry by entry. -/
theorem entry_w1 (c : Dev nD) (i : S512x512.Idx) :
    (W1 m ρ c (Proc.devRef .tc main_v0) : S512x512.Idx → EReal) i = (m ((c : Thread nD τ).loc main_arg2) : S512x512.Idx → EReal) i := by
  -- the buffer holds the conversion of the launched weights; on extended reals the conversion is the identity
  have e : (W1 m ρ c (Proc.devRef .tc main_v0) : S512x512.Idx → EReal)
      = truncf (F := Ideal) .bf16 (m ((c : Thread nD τ).loc main_arg2) : S512x512.Idx → EReal) bitsLt_bf16_f32 := by
    dsimp only [W1, hostOps0]; after_results
  rw [e]; rfl

/-- The converted second weight matrix is the second weight matrix, entry by entry. -/
theorem entry_w2 (c : Dev nD) (i : S512x64.Idx) :
    (W1 m ρ c (Proc.devRef .tc main_v1) : S512x64.Idx → EReal) i = (m ((c : Thread nD τ).loc main_arg4) : S512x64.Idx → EReal) i := by
  -- the buffer holds the conversion of the launched weights; on extended reals the conversion is the identity
  have e : (W1 m ρ c (Proc.devRef .tc main_v1) : S512x64.Idx → EReal)
      = truncf (F := Ideal) .bf16 (m ((c : Thread nD τ).loc main_arg4) : S512x64.Idx → EReal) bitsLt_bf16_f32 := by
    dsimp only [W1, hostOps0]; after_results
  rw [e]; rfl

/-- Entry (0, l) of the reshaped first bias is entry l of the bias. -/
theorem entry_b1 (c : Dev nD) (l : Fin 512) :
    (W1 m ρ c (Proc.devRef .tc main_v2) : S1x512.Idx → EReal) (ix2 (0 : Fin 1) l) = (m ((c : Thread nD τ).loc main_arg3) : S512.Idx → EReal) (ix1 l) := by
  -- the buffer holds the launched bias in row-major order at the shape [1, 512]
  have e : (W1 m ρ c (Proc.devRef .tc main_v2) : S1x512.Idx → EReal)
      = shapeCast S1x512 (m ((c : Thread nD τ).loc main_arg3) : S512.Idx → EReal) shapeCasts_S512_S1x512 := by
    dsimp only [W1, hostOps0]; after_results; rfl
  rw [e]
  exact addRow_apply (n := 512) _ _ l

/-- Entry (0, j) of the reshaped second bias is entry j of the bias. -/
theorem entry_b2 (c : Dev nD) (j : Fin 64) :
    (W1 m ρ c (Proc.devRef .tc main_v3) : S1x64.Idx → EReal) (ix2 (0 : Fin 1) j) = (m ((c : Thread nD τ).loc main_arg5) : S64.Idx → EReal) (ix1 j) := by
  -- the buffer holds the launched bias in row-major order at the shape [1, 64]
  have e : (W1 m ρ c (Proc.devRef .tc main_v3) : S1x64.Idx → EReal)
      = shapeCast S1x64 (m ((c : Thread nD τ).loc main_arg5) : S64.Idx → EReal) shapeCasts_S64_S1x64 := by
    dsimp only [W1, hostOps0]; after_results; rfl
  rw [e]
  exact addRow_apply (n := 64) _ _ j

end Cert.KernelIdeal.Val

end
-- ==== Proof.KChain.lean ====
/-
  The three regions chained. The first region's output (the projected features) is the second region's second input,
  whose output (the projected hidden state) is the third region's second input; the adjacency, the converted weights and
  the reshaped biases pass through the regions that do not write them. Reading the last boundary's contents back through
  the chain gives the program's result as the row-wise log-softmax (maximum added back to the log) of the network's
  logits of the launched arguments.
-/
import proofs.«181139_g25151328485548_cont_8to1_846_2_alg».proof.Proof.Gen.KernelIdeal.Frame
import proofs.«181139_g25151328485548_cont_8to1_846_2_alg».proof.Proof.Spec
import proofs.«181139_g25151328485548_cont_8to1_846_2_alg».proof.Proof.Region0
import proofs.«181139_g25151328485548_cont_8to1_846_2_alg».proof.Proof.Region1
import proofs.«181139_g25151328485548_cont_8to1_846_2_alg».proof.Proof.Region2
import proofs.«181139_g25151328485548_cont_8to1_846_2_alg».proof.Proof.HostVals
import Idealize.ShloMosaic.Lib.Pipeline.Value
import Idealize.ShloMosaic.Lib.ValueIdx

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx
open Cert.Spec

variable (m : (ℓ : Loc nD τ sig) → Buf (Elt Ideal) ℓ) (ρ : Dev nD → PrngReg)

/-- The launched arguments at their literal types. -/
abbrev aX (c : Dev nD) : S10000x512.Idx → EReal := m ((c : Thread nD τ).loc main_arg0)
abbrev aAdj (c : Dev nD) : S10000x10000.Idx → EReal := m ((c : Thread nD τ).loc main_arg1)
abbrev aW1 (c : Dev nD) : S512x512.Idx → EReal := m ((c : Thread nD τ).loc main_arg2)
abbrev aB1 (c : Dev nD) : S512.Idx → EReal := m ((c : Thread nD τ).loc main_arg3)
abbrev aW2 (c : Dev nD) : S512x64.Idx → EReal := m ((c : Thread nD τ).loc main_arg4)
abbrev aB2 (c : Dev nD) : S64.Idx → EReal := m ((c : Thread nD τ).loc main_arg5)

/-! ## What the first region finds and leaves -/

theorem r0x_eq (c : Dev nD) : cur2 (r0x (V1 m ρ) c) = cur2 (aX m c) := by
  funext p k
  show (W1 m ρ c (Proc.devRef .tc main_arg0) : S10000x512.Idx → EReal) (ix2 p k) = _
  rw [entry_x m ρ c]
  rfl

theorem r0w_eq (c : Dev nD) : cur2 (r0w (V1 m ρ) c) = cur2 (aW1 m c) := by
  funext k l
  exact entry_w1 m ρ c (ix2 k l)

/-- The projected features after the first region. -/
theorem feat_eq (c : Dev nD) (p : Fin 10000) (l : Fin 512) :
    (W2 m ρ c (Proc.devRef .tc main_v4) : S10000x512.Idx → EReal) (ix2 p l) = proj1 (cur2 (aX m c)) (cur2 (aW1 m c)) p l := by
  rw [show W2 m ρ c (Proc.devRef .tc main_v4) = (dat0 (V1 m ρ) c).arrAt 2 cfg0.N from W2_arr m ρ c 2]
  rw [region0_value (V1 m ρ) c p l, r0x_eq, r0w_eq]

/-! ## What the second region finds and leaves -/

theorem adj2_eq (c : Dev nD) : W2 m ρ c (Proc.devRef .tc main_arg1) = m ((c : Thread nD τ).loc main_arg1) :=
  (W2_of_ne m ρ c main_arg1 (by decide)).trans (entry_adj m ρ c)

theorem r1adj_eq (c : Dev nD) : cur2 (r1adj (V2 m ρ) c) = cur2 (aAdj m c) := by
  funext p k
  show (W2 m ρ c (Proc.devRef .tc main_arg1) : S10000x10000.Idx → EReal) (ix2 p k) = _
  rw [adj2_eq m ρ c]
  rfl

theorem r1h_eq (c : Dev nD) : cur2 (r1h (V2 m ρ) c) = proj1 (cur2 (aX m c)) (cur2 (aW1 m c)) := by
  funext p l
  exact feat_eq m ρ c p l

theorem r1b_eq (c : Dev nD) : cur2 (r1b (V2 m ρ) c) (0 : Fin 1) = cur1 (aB1 m c) := by
  funext l
  show (W2 m ρ c (Proc.devRef .tc main_v2) : S1x512.Idx → EReal) (ix2 (0 : Fin 1) l) = _
  rw [W2_of_ne m ρ c main_v2 (by decide)]
  exact entry_b1 m ρ c l

theorem r1w_eq (c : Dev nD) : cur2 (r1w (V2 m ρ) c) = cur2 (aW2 m c) := by
  funext l j
  show (W2 m ρ c (Proc.devRef .tc main_v1) : S512x64.Idx → EReal) (ix2 l j) = _
  rw [W2_of_ne m ρ c main_v1 (by decide)]
  exact entry_w2 m ρ c (ix2 l j)

/-- The projected hidden state after the second region. -/
theorem hid_eq (c : Dev nD) (p : Fin 10000) (j : Fin 64) :
    (W3 m ρ c (Proc.devRef .tc main_v5) : S10000x64.Idx → EReal) (ix2 p j)
      = layer1 (cur2 (aAdj m c)) (cur1 (aB1 m c)) (cur2 (aW2 m c)) (proj1 (cur2 (aX m c)) (cur2 (aW1 m c))) p j := by
  rw [show W3 m ρ c (Proc.devRef .tc main_v5) = (dat1 (V2 m ρ) c).arrAt 4 cfg1.N from W3_arr m ρ c 4]
  rw [region1_value (V2 m ρ) c p j, r1adj_eq, r1b_eq, r1w_eq, r1h_eq]

/-! ## What the third region finds and leaves -/

theorem adj3_eq (c : Dev nD) : W3 m ρ c (Proc.devRef .tc main_arg1) = m ((c : Thread nD τ).loc main_arg1) :=
  ((W3_arr m ρ c 0).trans (((dat1 (V2 m ρ) c).arrAt_in 0 rfl _).trans (A_eq1 (V2 m ρ) c 0))).trans (adj2_eq m ρ c)

theorem r2adj_eq (c : Dev nD) : cur2 (r2adj (V3 m ρ) c) = cur2 (aAdj m c) := by
  funext p k
  show (W3 m ρ c (Proc.devRef .tc main_arg1) : S10000x10000.Idx → EReal) (ix2 p k) = _
  rw [adj3_eq m ρ c]
  rfl

theorem r2g_eq (c : Dev nD) :
    cur2 (r2g (V3 m ρ) c) = layer1 (cur2 (aAdj m c)) (cur1 (aB1 m c)) (cur2 (aW2 m c)) (proj1 (cur2 (aX m c)) (cur2 (aW1 m c))) := by
  funext p j
  exact hid_eq m ρ c p j

theorem r2b_eq (c : Dev nD) : cur2 (r2b (V3 m ρ) c) (0 : Fin 1) = cur1 (aB2 m c) := by
  funext j
  show (W3 m ρ c (Proc.devRef .tc main_v3) : S1x64.Idx → EReal) (ix2 (0 : Fin 1) j) = _
  rw [W3_of_ne m ρ c main_v3 (by decide), W2_of_ne m ρ c main_v3 (by decide)]
  exact entry_b2 m ρ c j

/-- THE RESULT: the last boundary's contents at the result array, at row p and column q. -/
theorem out_value (c : Dev nD) (p : Fin 10000) (q : Fin 64) :
    (W4 m ρ c (Proc.devRef .tc main_v6) : S10000x64.Idx → EReal) (ix2 p q)
      = logPlusMax (logits (cur2 (aX m c)) (cur2 (aAdj m c)) (cur2 (aW1 m c)) (cur1 (aB1 m c)) (cur2 (aW2 m c)) (cur1 (aB2 m c)) p) q := by
  rw [show W4 m ρ c (Proc.devRef .tc main_v6) = (dat2 (V3 m ρ) c).arrAt 3 cfg2.N from W4_arr m ρ c 3]
  rw [region2_value (V3 m ρ) c p q, r2adj_eq, r2b_eq, r2g_eq]
  rfl

end Cert.KernelIdeal.Val

end
-- ==== Proof.RefValue.lean ====
/-
  The reference program's result, read as a value: at row p and column q it is the row-wise log-softmax, spelled
  "subtract the row maximum, then subtract the log of the sum of the exponentials", of the network's logits
  adj · (relu (adj · (x · W1) + b1) · W2) + b2  of the six argument arrays. Each host operation is read at an index: a
  dot_general as the sum over its contraction index, the two-step broadcasts of the biases as the bias entry, the
  maximum with the broadcast zero as max · 0, the reduce with maximum from -∞ joined with a broadcast -∞ as the fold of
  max from -∞ over the row, the reduce with add from zero as the sum over the row.
-/
import proofs.«181139_g25151328485548_cont_8to1_846_2_alg».proof.Proof.RefRead
import proofs.«181139_g25151328485548_cont_8to1_846_2_alg».proof.Proof.Spec
import Idealize.ShloMosaic.Lib.Pipeline.Value
import Idealize.ShloMosaic.Lib.ValueIdx
import Idealize.ShloMosaic.Lib.IdealHost
import Idealize.ShloMosaic.PureOps.Ideal.Laws
import Idealize.ShloMosaic.PureOps.Reduce

set_option maxRecDepth 16384

noncomputable section

namespace Cert.ReferenceIdeal.RefValue

open Cert.ReferenceIdeal Cert.ReferenceIdeal.Gen Cert.ReferenceIdeal.Read Idealize.ShloMosaic Idealize.ShloMosaic.ValueIdx
open Cert.Spec

/-! ## The constants -/

/-- The word of the constant zero is the extended real 0. -/
theorem zero_word : (FloatOps.ofBits (F := Ideal) .f32 0x00000000#32 : Ideal .f32) = 0 := Ideal.ofBits_zero_f32

/-- The word the row maximum starts from is -∞. -/
theorem negInf_word : (FloatOps.ofBits (F := Ideal) .f32 0xFF800000#32 : Ideal .f32) = (⊥ : EReal) := by
  show Ideal.ofBits .f32 0xFF800000#32 = (⊥ : EReal)
  simp [Ideal.ofBits, Ideal.ieee]

/-! ## The first layer -/

/-- The projected features: at (p, l), the sum over f of x (p, f) * W1 (f, l). -/
theorem proj_at (x0 : S10000x512.Idx → EReal) (x2 : S512x512.Idx → EReal) (p : Fin 10000) (l : Fin 512) :
    val_main_v0 (F := Ideal) x0 x2 (ix2 p l) = proj1 (cur2 x0) (cur2 x2) p l := by
  rw [val_main_v0_apply]
  show _ = ∑ k : Fin 512, x0 (ix2 p k) * x2 (ix2 k l)
  refine Finset.sum_congr rfl fun k _ => ?_
  have el : lidx_main_v0 (ix2 p l) k = ix2 p k := funext fun a => Fin.ext (by match a with | ⟨0, _⟩ => rfl | ⟨1, _⟩ => rfl)
  have er : ridx_main_v0 (ix2 p l) k = ix2 k l := funext fun a => Fin.ext (by match a with | ⟨0, _⟩ => rfl | ⟨1, _⟩ => rfl)
  rw [el, er]

/-- The first propagation: at (p, l), the sum over k of adj (p, k) times the projected features at (k, l). -/
theorem prop1_at (x0 : S10000x512.Idx → EReal) (x1 : S10000x10000.Idx → EReal) (x2 : S512x512.Idx → EReal)
    (p : Fin 10000) (l : Fin 512) :
    val_main_v1 (F := Ideal) x0 x1 x2 (ix2 p l) = ∑ k : Fin 10000, cur2 x1 p k * proj1 (cur2 x0) (cur2 x2) k l := by
  rw [val_main_v1_apply]
  refine Finset.sum_congr rfl fun k _ => ?_
  have el : lidx_main_v1 (ix2 p l) k = ix2 p k := funext fun a => Fin.ext (by match a with | ⟨0, _⟩ => rfl | ⟨1, _⟩ => rfl)
  have er : ridx_main_v1 (ix2 p l) k = ix2 k l := funext fun a => Fin.ext (by match a with | ⟨0, _⟩ => rfl | ⟨1, _⟩ => rfl)
  rw [el, er, proj_at]
  rfl

/-- The first bias, broadcast in two steps to the whole block: at (p, l) it is b1 l. -/
theorem bias1_at (x3 : S512.Idx → EReal) (p : Fin 10000) (l : Fin 512) :
    val_main_v3 (F := Ideal) x3 (ix2 p l) = cur1 x3 l := by
  rw [val_main_v3_apply, val_main_v2_apply]
  exact congrArg x3 (funext fun a => Fin.ext (by match a with | ⟨0, _⟩ => rfl))

/-- The rectified hidden state: at (p, l), the maximum with zero of the propagated sum plus the bias. -/
theorem hidden_at (x0 : S10000x512.Idx → EReal) (x1 : S10000x10000.Idx → EReal) (x2 : S512x512.Idx → EReal)
    (x3 : S512.Idx → EReal) (p : Fin 10000) (l : Fin 512) :
    val_main_v5 (F := Ideal) x0 x1 x2 x3 (ix2 p l)
      = max (∑ k : Fin 10000, cur2 x1 p k * proj1 (cur2 x0) (cur2 x2) k l + cur1 x3 l) 0 := by
  rw [val_main_v5_apply, val_main_v4_apply, val_main_call0_v0_apply, val_main_call0_cst_apply, prop1_at, bias1_at, zero_word]
  rfl

/-- The second projection of the hidden state is the specification's first layer. -/
theorem layer1_at (x0 : S10000x512.Idx → EReal) (x1 : S10000x10000.Idx → EReal) (x2 : S512x512.Idx → EReal)
    (x3 : S512.Idx → EReal) (x4 : S512x64.Idx → EReal) (p : Fin 10000) (j : Fin 64) :
    val_main_v6 (F := Ideal) x0 x1 x2 x3 x4 (ix2 p j)
      = layer1 (cur2 x1) (cur1 x3) (cur2 x4) (proj1 (cur2 x0) (cur2 x2)) p j := by
  rw [val_main_v6_apply]
  show _ = ∑ l : Fin 512, max (∑ k : Fin 10000, cur2 x1 p k * proj1 (cur2 x0) (cur2 x2) k l + cur1 x3 l) 0 * x4 (ix2 l j)
  refine Finset.sum_congr rfl fun l _ => ?_
  have el : lidx_main_v6 (ix2 p j) l = ix2 p l := funext fun a => Fin.ext (by match a with | ⟨0, _⟩ => rfl | ⟨1, _⟩ => rfl)
  have er : ridx_main_v6 (ix2 p j) l = ix2 l j := funext fun a => Fin.ext (by match a with | ⟨0, _⟩ => rfl | ⟨1, _⟩ => rfl)
  rw [el, er, hidden_at]

/-! ## The second layer: the logits -/

/-- The row of logits of node p, as one function of the column. -/
abbrev refRow (x0 : S10000x512.Idx → EReal) (x1 : S10000x10000.Idx → EReal) (x2 : S512x512.Idx → EReal)
    (x3 : S512.Idx → EReal) (x4 : S512x64.Idx → EReal) (x5 : S64.Idx → EReal) (p : Fin 10000) : Fin 64 → EReal :=
  logits (cur2 x0) (cur2 x1) (cur2 x2) (cur1 x3) (cur2 x4) (cur1 x5) p

/-- The second propagation: at (p, j), the sum over k of adj (p, k) times the first layer at (k, j). -/
theorem prop2_at (x0 : S10000x512.Idx → EReal) (x1 : S10000x10000.Idx → EReal) (x2 : S512x512.Idx → EReal)
    (x3 : S512.Idx → EReal) (x4 : S512x64.Idx → EReal) (p : Fin 10000) (j : Fin 64) :
    val_main_v7 (F := Ideal) x0 x1 x2 x3 x4 (ix2 p j)
      = ∑ k : Fin 10000, cur2 x1 p k * layer1 (cur2 x1) (cur1 x3) (cur2 x4) (proj1 (cur2 x0) (cur2 x2)) k j := by
  rw [val_main_v7_apply]
  refine Finset.sum_congr rfl fun k _ => ?_
  have el : lidx_main_v7 (ix2 p j) k = ix2 p k := funext fun a => Fin.ext (by match a with | ⟨0, _⟩ => rfl | ⟨1, _⟩ => rfl)
  have er : ridx_main_v7 (ix2 p j) k = ix2 k j := funext fun a => Fin.ext (by match a with | ⟨0, _⟩ => rfl | ⟨1, _⟩ => rfl)
  rw [el, er, layer1_at]
  rfl

/-- The second bias, broadcast in two steps to the whole block: at (p, j) it is b2 j. -/
theorem bias2_at (x5 : S64.Idx → EReal) (p : Fin 10000) (j : Fin 64) :
    val_main_v9 (F := Ideal) x5 (ix2 p j) = cur1 x5 j := by
  rw [val_main_v9_apply, val_main_v8_apply]
  exact congrArg x5 (funext fun a => Fin.ext (by match a with | ⟨0, _⟩ => rfl))

/-- The array the log-softmax is applied to holds the logits. -/
theorem logits_at (x0 : S10000x512.Idx → EReal) (x1 : S10000x10000.Idx → EReal) (x2 : S512x512.Idx → EReal)
    (x3 : S512.Idx → EReal) (x4 : S512x64.Idx → EReal) (x5 : S64.Idx → EReal) (p : Fin 10000) (j : Fin 64) :
    val_main_v10 (F := Ideal) x0 x1 x2 x3 x4 x5 (ix2 p j) = refRow x0 x1 x2 x3 x4 x5 p j := by
  rw [val_main_v10_apply, prop2_at, bias2_at]
  rfl

/-! ## The row maximum -/

/-- A reduced row index p with the column k put back is (p, k). -/
theorem lift_row (hr : S10000x64.Reduces [1] S10000) (p : Fin 10000) (k : Fin (S10000x64.size 1)) :
    hr.lift (ix1 p) k = ix2 p (⟨k.val, k.isLt⟩ : Fin 64) :=
  funext fun c => Fin.ext (by match c with | ⟨0, _⟩ => rfl | ⟨1, _⟩ => rfl)

/-- The reduce with a maximum body from -∞ along the columns is, at row p, the fold of max from -∞ over the row; the
    maximum of that with the broadcast -∞ changes nothing. -/
theorem rowMax_at (x0 : S10000x512.Idx → EReal) (x1 : S10000x10000.Idx → EReal) (x2 : S512x512.Idx → EReal)
    (x3 : S512.Idx → EReal) (x4 : S512x64.Idx → EReal) (x5 : S64.Idx → EReal) (p : Fin 10000) :
    val_main_call1_v2 (F := Ideal) x0 x1 x2 x3 x4 x5 (ix1 p) = rowMax (refRow x0 x1 x2 x3 x4 x5 p) := by
  have hr : S10000x64.Reduces [1] S10000 := by decide
  have hred : val_main_call1_v0 (F := Ideal) x0 x1 x2 x3 x4 x5 (ix1 p) = rowMax (refRow x0 x1 x2 x3 x4 x5 p) := by
    unfold val_main_call1_v0
    rw [Host.reduce_eq_fold_single (FloatOps.maximumf (F := Ideal) (φ := .f32)) (val_main_v10 (F := Ideal) x0 x1 x2 x3 x4 x5) _ _ hr _,
      val_main_call1_cst_apply, negInf_word]
    have hf : (val_main_v10 (F := Ideal) x0 x1 x2 x3 x4 x5 ∘ hr.lift (ix1 p)) = refRow x0 x1 x2 x3 x4 x5 p :=
      funext fun k => by
        show val_main_v10 (F := Ideal) x0 x1 x2 x3 x4 x5 (hr.lift (ix1 p) k) = _
        rw [lift_row hr p k, logits_at]
        rfl
    rw [hf]
    rfl
  rw [val_main_call1_v2_apply, val_main_call1_v1_apply, val_main_call1_cst_0_apply, negInf_word, hred]
  exact max_eq_right bot_le

/-- The row maximum broadcast back over the columns. -/
theorem rowMaxB_at (x0 : S10000x512.Idx → EReal) (x1 : S10000x10000.Idx → EReal) (x2 : S512x512.Idx → EReal)
    (x3 : S512.Idx → EReal) (x4 : S512x64.Idx → EReal) (x5 : S64.Idx → EReal) (p : Fin 10000) (j : Fin 64) :
    val_main_call1_v4 (F := Ideal) x0 x1 x2 x3 x4 x5 (ix2 p j) = rowMax (refRow x0 x1 x2 x3 x4 x5 p) := by
  rw [val_main_call1_v4_apply, val_main_call1_v3_apply]
  have e : idx_main_call1_v3 (idx_main_call1_v4 (ix2 p j)) = ix1 p := funext fun a => Fin.ext (by match a with | ⟨0, _⟩ => rfl)
  rw [e, rowMax_at]

/-- The shifted logits: at (p, j), the logit minus the row maximum. -/
theorem shifted_at (x0 : S10000x512.Idx → EReal) (x1 : S10000x10000.Idx → EReal) (x2 : S512x512.Idx → EReal)
    (x3 : S512.Idx → EReal) (x4 : S512x64.Idx → EReal) (x5 : S64.Idx → EReal) (p : Fin 10000) (j : Fin 64) :
    val_main_call1_v5 (F := Ideal) x0 x1 x2 x3 x4 x5 (ix2 p j) = refRow x0 x1 x2 x3 x4 x5 p j - rowMax (refRow x0 x1 x2 x3 x4 x5 p) := by
  rw [val_main_call1_v5_apply, logits_at, rowMaxB_at]
  rfl

/-! ## The log of the sum of the exponentials -/

/-- The reduce with an add body from zero along the columns of the exponentials is, at row p, their sum over the row. -/
theorem sumExp_at (x0 : S10000x512.Idx → EReal) (x1 : S10000x10000.Idx → EReal) (x2 : S512x512.Idx → EReal)
    (x3 : S512.Idx → EReal) (x4 : S512x64.Idx → EReal) (x5 : S64.Idx → EReal) (p : Fin 10000) :
    val_main_call1_v7 (F := Ideal) x0 x1 x2 x3 x4 x5 (ix1 p)
      = ∑ k : Fin 64, Ideal.exp (refRow x0 x1 x2 x3 x4 x5 p k - rowMax (refRow x0 x1 x2 x3 x4 x5 p)) := by
  rw [val_main_call1_v7_apply, val_main_call1_cst_1_apply, zero_word, zero_add]
  refine Finset.sum_congr rfl fun k _ => ?_
  have e : idx_main_call1_v7 (ix1 p) k = ix2 p k := funext fun a => Fin.ext (by match a with | ⟨0, _⟩ => rfl | ⟨1, _⟩ => rfl)
  rw [e, val_main_call1_v6_apply, shifted_at]
  rfl

/-- The log of that sum, broadcast back over the columns. -/
theorem logSum_at (x0 : S10000x512.Idx → EReal) (x1 : S10000x10000.Idx → EReal) (x2 : S512x512.Idx → EReal)
    (x3 : S512.Idx → EReal) (x4 : S512x64.Idx → EReal) (x5 : S64.Idx → EReal) (p : Fin 10000) (j : Fin 64) :
    val_main_call1_v10 (F := Ideal) x0 x1 x2 x3 x4 x5 (ix2 p j) = logSumShifted (refRow x0 x1 x2 x3 x4 x5 p) := by
  rw [val_main_call1_v10_apply, val_main_call1_v9_apply, val_main_call1_v8_apply]
  have e : idx_main_call1_v8 (idx_main_call1_v10 (ix2 p j)) = ix1 p := funext fun a => Fin.ext (by match a with | ⟨0, _⟩ => rfl)
  rw [e, sumExp_at]
  rfl

/-! ## The result -/

/-- THE REFERENCE'S RESULT at row p and column q, as the specification's term of the six argument arrays. -/
theorem ref_value (x0 : S10000x512.Idx → EReal) (x1 : S10000x10000.Idx → EReal) (x2 : S512x512.Idx → EReal)
    (x3 : S512.Idx → EReal) (x4 : S512x64.Idx → EReal) (x5 : S64.Idx → EReal) (p : Fin 10000) (q : Fin 64) :
    val_main_v11 (F := Ideal) x0 x1 x2 x3 x4 x5 (ix2 p q)
      = shiftedThenLog (logits (cur2 x0) (cur2 x1) (cur2 x2) (cur1 x3) (cur2 x4) (cur1 x5) p) q := by
  rw [val_main_v11_apply, shifted_at, logSum_at]
  rfl

end Cert.ReferenceIdeal.RefValue

end
-- ==== Proof.Finite.lean ====
/-
  What the precondition says, entry by entry: "every float input is finite" is printed as six comparisons |x| < +∞,
  each reduced by `and` over its whole array, and the six results joined by `and`. When the result is the bit 1, every entry of
  every argument array is a real number: an extended real whose absolute value is below +∞ is neither infinity.
-/
import proofs.«181139_g25151328485548_cont_8to1_846_2_alg».proof.Pre_finite_inputs
import proofs.«181139_g25151328485548_cont_8to1_846_2_alg».proof.Proof.Spec
import Idealize.ShloMosaic.Lib.ReduceAll
import Idealize.ShloMosaic.Lib.ValueIdx
import Idealize.ShloMosaic.PureOps.Ideal.Laws

set_option maxRecDepth 16384

noncomputable section

namespace Cert.Proof.Finite

open Idealize.ShloMosaic Cert.Spec

/-- The pattern 0x7F800000 of the 32-bit format denotes +∞. -/
theorem ofBits_inf : Ideal.ofBits .f32 0x7F800000#32 = (⊤ : EReal) := by
  simp [Ideal.ofBits, Ideal.ieee]

/-- An extended real whose absolute value `max x (-x)` is strictly below +∞ is a real number:
    at -∞ and at +∞ the absolute value is +∞ itself. -/
theorem isReal_of_abs_lt_top (x : EReal) (h : max x (-x) < ⊤) : IsReal x := by
  induction x using EReal.rec with
  | bot => exact absurd h (by simp)
  | top => exact absurd h (by simp)
  | coe r => exact ⟨r, rfl⟩

/-- One `all`: when the `and` of the comparisons `|a i| < +∞` over a whole array, into a result of a single index,
    is the bit 1, every comparison is 1, so every entry is a real number. -/
theorem all_real {S : Shape} {axes : List (Fin S.rank)}
    (hb : Cert.Pre_finite_inputs.S_.BroadcastsInDim S (![] : Fin 0 → Fin S.rank))
    (hr : S.ReducesTo axes Cert.Pre_finite_inputs.S_) (hu : 0 < Cert.Pre_finite_inputs.S_.numel)
    (a : FVec Ideal S .f32) (init : IVec Cert.Pre_finite_inputs.S_ 1)
    (e : Host.reduce IntOp.andi
        (cmpf .olt (Host.absf a)
          (broadcastInDim S ![] hb (constant (F := Ideal) Cert.Pre_finite_inputs.S_ .f32 0x7F800000#32)))
        init hr hu ValueIdx.ix0 = 1#1) :
    ∀ i, IsReal (a i) := by
  intro i
  -- the rank-0 shape has a single index
  haveI : Subsingleton Cert.Pre_finite_inputs.S_.Idx := ⟨fun p q => funext fun d => d.elim0⟩
  have hi := Host.reduce_andi_all _ init hr hu ValueIdx.ix0 e i
  -- the comparison at `i`: the absolute value of the entry against the broadcast constant
  have hc : Ideal.cmp .olt (max (a i) (-(a i))) (Ideal.ofBits .f32 0x7F800000#32) = 1#1 := hi
  rw [ofBits_inf] at hc
  refine isReal_of_abs_lt_top (a i) ?_
  by_contra hn
  simp [Ideal.cmp, hn] at hc

variable [Cert.Pre_finite_inputs.Facts]

/-- Under the precondition every entry of every argument array is a real number. -/
theorem real_of_pre (a0 : FVec Ideal Cert.Pre_finite_inputs.S10000x512 .f32) (a1 : FVec Ideal Cert.Pre_finite_inputs.S10000x10000 .f32)
    (a2 : FVec Ideal Cert.Pre_finite_inputs.S512x512 .f32) (a3 : FVec Ideal Cert.Pre_finite_inputs.S512 .f32)
    (a4 : FVec Ideal Cert.Pre_finite_inputs.S512x64 .f32) (a5 : FVec Ideal Cert.Pre_finite_inputs.S64 .f32)
    (h : Cert.Pre_finite_inputs.fn (F := Ideal) a0 a1 a2 a3 a4 a5 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) := by
  have h0 := congrFun h ValueIdx.ix0
  dsimp only [Cert.Pre_finite_inputs.fn, Cert.Pre_finite_inputs.fn_part1] at h0
  -- the result is the `and` of the six reductions, nested to the left
  change IntOp.andi (IntOp.andi (IntOp.andi (IntOp.andi (IntOp.andi _ _) _) _) _) _ = 1#1 at h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real _ _ _ a0 _ e0, all_real _ _ _ a1 _ e1, all_real _ _ _ a2 _ e2, all_real _ _ _ a3 _ e3,
    all_real _ _ _ a4 _ e4, all_real _ _ _ a5 _ e5⟩

end Cert.Proof.Finite

end
-- ==== Proof.lean ====
/-
  A two-layer dense graph convolution, out = log_softmax (adj · (relu (adj · (x · W1) + b1) · W2) + b2), computed by
  three pipelined kernels (x · W1; relu (adj · P1 + b1) · W2; adj · P2 + b2 followed by the row-wise log-softmax), each over
  25 row blocks of 400 rows, against the same expression written with whole-array operations.

  At the ideal instance a change of float format is the identity and the matrix unit's product into a zero accumulator
  is the plain sum of products, so the two programs compute the SAME logits, sum for sum: no algebra is needed up to
  there. They differ in the last step. The kernel subtracts once, o - (log (∑ exp (o - M)) + M), with M the row's
  maximum; the reference subtracts twice, (o - M) - log (∑ exp (o - M)). On the extended reals -(L + M) = -L - M needs M
  (or L) finite, and M is finite exactly when the logits of the row are: this is where the precondition is used. Every
  input entry is a real number, sums of products of reals, maxima with zero and sums with reals are real, so every
  logit is real, so is every row maximum, and the two spellings agree (Spec.lean).

  The frames of the two kernel programs are the generated ones; the reference's frame is its run with the result
  dropped; the idealization rewrote nothing, so there is nothing to preserve.
-/
import proofs.«181139_g25151328485548_cont_8to1_846_2_alg».proof.Defs
import proofs.«181139_g25151328485548_cont_8to1_846_2_alg».proof.Proof.Gen.Kernel
import proofs.«181139_g25151328485548_cont_8to1_846_2_alg».proof.Proof.Gen.Kernel.Skeleton
import proofs.«181139_g25151328485548_cont_8to1_846_2_alg».proof.Proof.Gen.Kernel.Launch
import proofs.«181139_g25151328485548_cont_8to1_846_2_alg».proof.Proof.Gen.Kernel.Points
import proofs.«181139_g25151328485548_cont_8to1_846_2_alg».proof.Proof.Gen.Kernel.Frame
import proofs.«181139_g25151328485548_cont_8to1_846_2_alg».proof.Proof.Gen.KernelIdeal
import proofs.«181139_g25151328485548_cont_8to1_846_2_alg».proof.Proof.Gen.KernelIdeal.Skeleton
import proofs.«181139_g25151328485548_cont_8to1_846_2_alg».proof.Proof.Gen.KernelIdeal.Launch
import proofs.«181139_g25151328485548_cont_8to1_846_2_alg».proof.Proof.Gen.KernelIdeal.Points
import proofs.«181139_g25151328485548_cont_8to1_846_2_alg».proof.Proof.Gen.KernelIdeal.Frame
import proofs.«181139_g25151328485548_cont_8to1_846_2_alg».proof.Proof.Gen.ReferenceIdeal
import proofs.«181139_g25151328485548_cont_8to1_846_2_alg».proof.Proof.Gen.Pre_finite_inputs
import proofs.«181139_g25151328485548_cont_8to1_846_2_alg».proof.Proof.Spec
import proofs.«181139_g25151328485548_cont_8to1_846_2_alg».proof.Proof.KRun
import proofs.«181139_g25151328485548_cont_8to1_846_2_alg».proof.Proof.KChain
import proofs.«181139_g25151328485548_cont_8to1_846_2_alg».proof.Proof.RefRun
import proofs.«181139_g25151328485548_cont_8to1_846_2_alg».proof.Proof.RefRead
import proofs.«181139_g25151328485548_cont_8to1_846_2_alg».proof.Proof.RefValue
import proofs.«181139_g25151328485548_cont_8to1_846_2_alg».proof.Proof.Finite
import Idealize.ShloMosaic.Adequacy
import Idealize.ShloMosaic.Init

set_option maxRecDepth 16384

noncomputable section

namespace Cert.Proof

open Idealize.ShloMosaic Idealize.SL.Sem Idealize.ShloMosaic.ValueIdx Cert.Spec

/-- The word-level kernel program terminates without a fault and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the row-wise log-softmax of the same logits: the kernel's spelling (the maximum
    added back to the log) and the reference's (two subtractions) agree because every logit is a real number under the
    precondition. -/
theorem algebraic : Cert.algebraic_KernelIdeal_ReferenceIdeal := by
  intro m ρ m' ρ' hpre hagree
  refine ⟨fun c => Cert.KernelIdeal.Gen.W4 m ρ c (Proc.devRef .tc Cert.KernelIdeal.main_v6),
    Cert.KernelIdeal.Out.run_out (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, (hagree c).1, (hagree c).2.1, (hagree c).2.2.1, (hagree c).2.2.2.1,
    (hagree c).2.2.2.2.1, (hagree c).2.2.2.2.2]
  obtain ⟨h0, h1, h2, h3, h4, h5⟩ := Cert.Proof.Finite.real_of_pre _ _ _ _ _ _ (hpre c)
  funext idx
  obtain ⟨p, q, rfl⟩ : ∃ (p : Fin 10000) (q : Fin 64), idx = ix2 p q := ⟨idx 0, idx 1, eq_ix2 idx⟩
  refine (Cert.ReferenceIdeal.RefValue.ref_value _ _ _ _ _ _ p q).trans ?_
  refine Eq.trans ?_ (Cert.KernelIdeal.Val.out_value m ρ c p q).symm
  exact (logPlusMax_eq_shiftedThenLog (by decide) _
    (fun j => logits_isReal _ _ _ _ _ _ (fun i k => h0 (ix2 i k)) (fun i k => h1 (ix2 i k)) (fun k l => h2 (ix2 k l))
      (fun l => h3 (ix1 l)) (fun l j => h4 (ix2 l j)) (fun j => h5 (ix1 j)) p j) q).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
